-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S4096x1024_S1024_d0 : S4096x1024.ReducesTo [0] S1024
  reducesTo_S1024_S_d0 : S1024.ReducesTo [0] S_

variable [Facts]

def fn_part2 {F : FTy → Type} [FloatOps F] (main_arg2 : FVec F S4096x1024 .f32) (main_v33 : IVec S_ 1) : IVec S_ 1 :=
  let main_cst_12 : FVec F S_ .f32 := constant S_ .f32 0x00000000#32
  let main_v34 : FVec F S4096x1024 .f32 := broadcastInDim S4096x1024 ![] bcast_S_S4096x1024 main_cst_12
  let main_v35 : IVec S4096x1024 1 := cmpf .une main_arg2 main_v34
  let main_c_13 : IVec S_ 1 := constantI S_ 1 0#1
  let main_v36 : IVec S1024 1 := (fun x v => Host.reduce IntOp.ori x v reducesTo_S4096x1024_S1024_d0 h_S_) main_v35 main_c_13
  let main_c_14 : IVec S_ 1 := constantI S_ 1 1#1
  let main_v37 : IVec S_ 1 := (fun x v => Host.reduce IntOp.andi x v reducesTo_S1024_S_d0 h_S_) main_v36 main_c_14
  let main_v38 : IVec S_ 1 := andi main_v33 main_v37
  main_v38

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x128 : Shape := ⟨2, ![1024, 128]⟩
abbrev S1024x1024 : Shape := ⟨2, ![1024, 1024]⟩
abbrev S2000x256 : Shape := ⟨2, ![2000, 256]⟩
abbrev S1024 : Shape := ⟨1, ![1024]⟩
abbrev S1024x1 : Shape := ⟨2, ![1024, 1]⟩
abbrev S2000x1024 : Shape := ⟨2, ![2000, 1024]⟩
abbrev S2000x128 : Shape := ⟨2, ![2000, 128]⟩
abbrev S2000x1 : Shape := ⟨2, ![2000, 1]⟩

abbrev nBuf : Space → Nat
  | .hbm => 12
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S_, .bf16⟩
  | .hbm, ⟨10, _⟩ => ⟨S1024x128, .bf16⟩
  | .hbm, ⟨11, _⟩ => ⟨S10000x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S1024x128, .bf16⟩
  | .local _ .vmem, ⟨10, _⟩ => ⟨S2000x256, .f32⟩
  | .local _ .vmem, ⟨11, _⟩ => ⟨S2000x256, .f32⟩
  | .local _ .vmem, ⟨12, _⟩ => ⟨S1024x1024, .f32⟩
  | .local _ .vmem, ⟨13, _⟩ => ⟨S1024x256, .bf16⟩
  | .local _ .vmem, ⟨14, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![9], ![false]⟩

def k0_cond4 (i : grid0.Coords) : BitVec 1 :=
  let arg0 : BitVec 32 := BitVec.ofNat 32 (i 0).val
  let c4_i32_4 : BitVec 32 := 4#32
  let v11 : BitVec 1 := Scalar.cmpi .sge arg0 c4_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  bcast_S_S1024x128 : S_.BroadcastsInDim S1024x128 (![] : Fin 0 → Fin S1024x128.rank)
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  reduces_S1024x1024_S1024 : S1024x1024.Reduces [0] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S2000x128_o0_0_S2000x1 : S2000x128.Slices ![0, 0] S2000x1
  broadcasts_S2000x1_S2000x256 : S2000x1.Broadcasts S2000x256
  dot_S1024x1024_S1024x1024_S1024x1024_0_0_1_1_n_n_wf : DotDims.WF S1024x1024 S1024x1024 S1024x1024 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x256_S2000x256_1_0_0_1_n_n_wf : DotDims.WF S2000x1024 S1024x256 S2000x256 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S10000x256.size a
  hwx0_8 : ∀ i : grid0.Coords, EltTy.bits .f32 = 32 ∨ (Rect.block (s := S10000x256) S2000x256.size (cc0_transform_8 i) (hinb0_8 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.IdealFrame.Setup.lean ====
/-
  The kernel body's four branches over the nine grid points, and what the body is handed.

  The body branches on the grid coordinate i alone: at i = 0 it stores the first Gram chunk into the first scratch;
  at 0 < i < 4 it adds a chunk to it; at i = 3 it also turns the finished Gram matrix into the mixed values and
  stores them and the scaled keys into the second and third scratch; at 4 ≤ i it computes one block of the output
  from a block of queries and the two stored scratches. So the points fall into four kinds: 0; 1 and 2; 3; 4 to 8.
  The output window's block index is max (i - 4) 0: it stays at block 0 through point 4, so the window is written
  back at points 4 to 8 only, and the body stores into it at exactly those points.
-/
import proofs.«130755_g52209622450808_cont_9to1_m_767_16_alg».proof.Proof.Gen.KernelIdeal.Frame
import proofs.«130755_g52209622450808_cont_9to1_m_767_16_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- The first branch's condition: the grid coordinate is 0. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch's condition: the coordinate lies strictly between 0 and 4. -/
abbrev condAcc (i : grid0.Coords) : Prop :=
  (Scalar.cmpi .ne (Scalar.extui (Scalar.andi (Scalar.cmpi .sgt (BitVec.ofNat 32 (i 0).val) 0#32) (Scalar.cmpi .slt (BitVec.ofNat 32 (i 0).val) 4#32))) 0#32) = 1#1
theorem hcondAcc : ∀ t : Fin cfg0.N, condAcc (grid0.coords t) ↔ (0 < t.val ∧ t.val < 4) :=
  (by decide +kernel : ∀ t : Fin grid0.N, condAcc (grid0.coords t) ↔ (0 < t.val ∧ t.val < 4))

/-- The third branch's condition: the coordinate is 3. -/
abbrev condFin (i : grid0.Coords) : Prop :=
  (Scalar.cmpi .ne (Scalar.extui (Scalar.cmpi .eq (BitVec.ofNat 32 (i 0).val) 3#32)) 0#32) = 1#1
theorem hcondFin : ∀ t : Fin cfg0.N, condFin (grid0.coords t) ↔ t.val = 3 :=
  (by decide +kernel : ∀ t : Fin grid0.N, condFin (grid0.coords t) ↔ t.val = 3)

/-- The fourth branch's condition: the coordinate is at least 4. -/
abbrev condAtt (i : grid0.Coords) : Prop := k0_cond4 i = 1#1
theorem hcondAtt : ∀ t : Fin cfg0.N, condAtt (grid0.coords t) ↔ 4 ≤ t.val :=
  (by decide +kernel : ∀ t : Fin grid0.N, condAtt (grid0.coords t) ↔ 4 ≤ t.val)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Before point 4 the output window is idle and is not written back. -/
theorem idle8 : ∀ t : Fin cfg0.N, t.val < 4 → cfg0.idle 8 (grid0.coords t) = true := by decide +kernel
theorem noFlush8 : ∀ t : Fin cfg0.N, t.val < 4 → (cfg0.win 8).flush t = false := by decide +kernel
/-- From point 4 on it is live. -/
theorem live8 : ∀ t : Fin cfg0.N, 4 ≤ t.val → cfg0.idle 8 (grid0.coords t) = false := by decide +kernel

/-! ## What the body is called with -/

/-- Each window's current staging memref at point `t`, as the pipeline passes it, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2000x256 .f32 := win0_8.stage (cfg0.slots t 8)
abbrev hs8 (t : Fin cfg0.N) : (ms8 t).IsWhole := hstage0_8 ((cfg0.slots t 8).cast nbuf0_8)

/-- The three scratch operands: whole buffers of the kernel's own. The first carries the Gram matrix, the second
    the mixed values, the third the scaled keys. -/
abbrev scG : Memref sig .tc .vmem S1024x1024 .f32 := Memref.whole cc0_scratch0
abbrev scM : Memref sig .tc .vmem S1024x256 .bf16 := Memref.whole cc0_scratch1
abbrev scK : Memref sig .tc .vmem S1024x256 .bf16 := Memref.whole cc0_scratch2

/-- What the launch hands the body beside the windows: the three scratches at some contents and the generator
    register at some state. -/
theorem PhiA_eq (c : Dev nD) :
    (Pipeline.ΦA spec0 c : sProp 𝕄)
      = iprop(iprop((∃ d, owns (c : Thread nD τ) scG fullShare d) ∗ (∃ d, owns (c : Thread nD τ) scM fullShare d) ∗ (∃ d, owns (c : Thread nD τ) scK fullShare d)) ∗ (∃ r, prngReg c r)) := by
  unfold Pipeline.ΦA; rw [scopedRest0_eq]; simp only [scG, scM, scK, owns_whole]; try rfl

end Cert.KernelIdeal.Body

end
-- ==== Proof.IdealFrame.RunA.lean ====
/-
  The body at the first grid point: only the first branch is taken. It loads the block of fix_feat, loads the
  Gram scratch (whatever it holds) and stores the first chunk's Gram matrix over it; nothing else is touched.
-/
import proofs.«130755_g52209622450808_cont_9to1_m_767_16_alg».proof.Proof.IdealFrame.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the Gram scratch at the first point, with the body's triple: from the block of
    fix_feat at `x0` and the scratch at anything, to the block as it was and the scratch with the pieces written. -/
noncomputable def runA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : condFirst i) (hc2 : ¬condAcc i) (hc3 : ¬condFin i) (hc4 : ¬condAtt i)
    (x0 : Vec F S1024x1024 .f32) :
    { LG : List (View.Piece (Elt F) S1024x1024 .f32) //
      ∀ (E : Set ℕ) (K : PUnit → sProp 𝕄),
        iprop(owns (c : Thread nD τ) arg1 fullShare x0 ∗ (∃ d, owns (c : Thread nD τ) arg10 fullShare d)
            ∗ (iprop(owns (c : Thread nD τ) arg1 fullShare x0 ∗ (∃ f, arg10.view.loc (c : Thread nD τ) ↦[arg10.view.set]{fullShare} arg10.view.writes (Elt F) f LG)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f0, %hf0, H0⟩, ⟨%dg, %fg, -, HG⟩, Hk⟩
    obtain rfl := harg1.eq_unread hf0
    sl_exec (disch := first | exact hc1 | exact hc2 | exact hc3 | exact hc4)
    sl_step
    iapply Hk
    isplitl [H0]
    · iexists _; isplitr; · ipureintro; exact harg1.read_unread _
      iexact H0
    iexists _; iexact HG

end Cert.KernelIdeal.Body

end
-- ==== Proof.IdealFrame.RunB.lean ====
/-
  The body at grid points 1 and 2: only the second branch is taken. It loads the block of fix_feat and the Gram
  scratch and stores their chunk's Gram matrix added to what the scratch held.
-/
import proofs.«130755_g52209622450808_cont_9to1_m_767_16_alg».proof.Proof.IdealFrame.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the Gram scratch at points 1 and 2, with the body's triple: from the block of
    fix_feat at `x0` and the scratch at `xg`, to the block as it was and the scratch with the pieces written. -/
noncomputable def runB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : ¬condFin i) (hc4 : ¬condAtt i)
    (x0 : Vec F S1024x1024 .f32) (xg : Vec F S1024x1024 .f32) :
    { LG : List (View.Piece (Elt F) S1024x1024 .f32) //
      ∀ (E : Set ℕ) (K : PUnit → sProp 𝕄),
        iprop(owns (c : Thread nD τ) arg1 fullShare x0 ∗ owns (c : Thread nD τ) arg10 fullShare xg
            ∗ (iprop(owns (c : Thread nD τ) arg1 fullShare x0 ∗ (∃ f, arg10.view.loc (c : Thread nD τ) ↦[arg10.view.set]{fullShare} arg10.view.writes (Elt F) f LG)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f0, %hf0, H0⟩, ⟨%fg, %hfg, HG⟩, Hk⟩
    obtain rfl := harg1.eq_unread hf0; obtain rfl := harg10.eq_unread hfg
    sl_exec (disch := first | exact hc1 | exact hc2 | exact hc3 | exact hc4)
    sl_step
    iapply Hk
    isplitl [H0]
    · iexists _; isplitr; · ipureintro; exact harg1.read_unread _
      iexact H0
    iexists _; iexact HG

end Cert.KernelIdeal.Body

end
-- ==== Proof.IdealFrame.RunC.lean ====
/-
  The body at grid point 3: the second and third branches are taken. It adds the last chunk to the Gram scratch,
  then reads the finished Gram matrix back, loads other_feat, the key weights and the key bias, and stores the
  mixed values into the second scratch and the scaled keys into the third.
-/
import proofs.«130755_g52209622450808_cont_9to1_m_767_16_alg».proof.Proof.IdealFrame.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The pieces the body leaves in the three scratches at point 3, with the body's triple. -/
noncomputable def runC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i)
    (x0 : Vec F S1024x1024 .f32) (xg : Vec F S1024x1024 .f32) (x1 : Vec F S1024x256 .f32) (x2 : Vec F S256x256 .f32) (x3 : Vec F S1x256 .f32) :
    Σ' (LG : List (View.Piece (Elt F) S1024x1024 .f32)) (LM : List (View.Piece (Elt F) S1024x256 .bf16)), { LK : List (View.Piece (Elt F) S1024x256 .bf16) //
      ∀ (E : Set ℕ) (K : PUnit → sProp 𝕄),
        iprop(owns (c : Thread nD τ) arg1 fullShare x0 ∗ owns (c : Thread nD τ) arg10 fullShare xg
            ∗ owns (c : Thread nD τ) arg2 fullShare x1 ∗ owns (c : Thread nD τ) arg3 fullShare x2 ∗ owns (c : Thread nD τ) arg4 fullShare x3
            ∗ (∃ d, owns (c : Thread nD τ) arg11 fullShare d) ∗ (∃ d, owns (c : Thread nD τ) arg12 fullShare d)
            ∗ (iprop(owns (c : Thread nD τ) arg1 fullShare x0 ∗ (∃ f, arg10.view.loc (c : Thread nD τ) ↦[arg10.view.set]{fullShare} arg10.view.writes (Elt F) f LG)
                ∗ owns (c : Thread nD τ) arg2 fullShare x1 ∗ owns (c : Thread nD τ) arg3 fullShare x2 ∗ owns (c : Thread nD τ) arg4 fullShare x3
                ∗ (∃ f, arg11.view.loc (c : Thread nD τ) ↦[arg11.view.set]{fullShare} arg11.view.writes (Elt F) f LM)
                ∗ (∃ f, arg12.view.loc (c : Thread nD τ) ↦[arg12.view.set]{fullShare} arg12.view.writes (Elt F) f LK)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_kernel_eq_skeleton]; unfold cc0__fused_kernel_skel
    unfold owns
    iintro ⟨⟨%f0, %hf0, H0⟩, ⟨%fg, %hfg, HG⟩, ⟨%f1, %hf1, H1⟩, ⟨%f2, %hf2, H2⟩, ⟨%f3, %hf3, H3⟩, ⟨%dm, %fm, -, HM⟩, ⟨%dk, %fk, -, HK⟩, Hk⟩
    obtain rfl := harg1.eq_unread hf0; obtain rfl := harg10.eq_unread hfg
    obtain rfl := harg2.eq_unread hf1; obtain rfl := harg3.eq_unread hf2; obtain rfl := harg4.eq_unread hf3
    sl_exec (disch := first | exact hc1 | exact hc2 | exact hc3 | exact hc4)
    sl_step
    iapply Hk
    isplitl [H0]
    · iexists _; isplitr; · ipureintro; exact harg1.read_unread _
      iexact H0
    isplitl [HG]; · iexists _; iexact HG
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HM]; · iexists _; iexact HM
    iexists _; iexact HK

end Cert.KernelIdeal.Body

end
-- ==== Proof.IdealFrame.RunD.lean ====
/-
  The body at grid points 4 to 8: only the fourth branch is taken. It loads a block of main_feat, the query weights
  and bias, the scaled keys and the mixed values from the two scratches and the column of ones, and stores the
  block of attention rows into the output window's buffer; the scratches are read only.
-/
import proofs.«130755_g52209622450808_cont_9to1_m_767_16_alg».proof.Proof.IdealFrame.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The pieces the body leaves in the output buffer at points 4 to 8, with the body's triple. -/
noncomputable def runD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : ¬condAcc i) (hc3 : ¬condFin i) (hc4 : condAtt i)
    (x4 : Vec F S2000x256 .f32) (x5 : Vec F S256x256 .f32) (x6 : Vec F S1x256 .f32) (xk : Vec F S1024x256 .bf16) (xm : Vec F S1024x256 .bf16) (x7 : Vec F S1024x128 .bf16) :
    { LO : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6
            ∗ owns (c : Thread nD τ) arg12 fullShare xk ∗ owns (c : Thread nD τ) arg11 fullShare xm ∗ owns (c : Thread nD τ) arg8 fullShare x7
            ∗ (∃ d, owns (c : Thread nD τ) arg9 fullShare d)
            ∗ (iprop(owns (c : Thread nD τ) arg5 fullShare x4 ∗ owns (c : Thread nD τ) arg6 fullShare x5 ∗ owns (c : Thread nD τ) arg7 fullShare x6
                ∗ owns (c : Thread nD τ) arg12 fullShare xk ∗ owns (c : Thread nD τ) arg11 fullShare xm ∗ owns (c : Thread nD τ) arg8 fullShare x7
                ∗ (∃ f, arg9.view.loc (c : Thread nD τ) ↦[arg9.view.set]{fullShare} arg9.view.writes (Elt F) f LO)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f4, %hf4, H4⟩, ⟨%f5, %hf5, H5⟩, ⟨%f6, %hf6, H6⟩, ⟨%fk, %hfk, HK⟩, ⟨%fm, %hfm, HM⟩, ⟨%f7, %hf7, H7⟩, ⟨%dout, %fo, -, HO⟩, Hk⟩
    obtain rfl := harg5.eq_unread hf4; obtain rfl := harg6.eq_unread hf5; obtain rfl := harg7.eq_unread hf6
    obtain rfl := harg12.eq_unread hfk; obtain rfl := harg11.eq_unread hfm; obtain rfl := harg8.eq_unread hf7
    sl_exec (disch := first | exact hc1 | exact hc2 | exact hc3 | exact hc4)
    sl_step
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HK]
    · iexists _; isplitr; · ipureintro; exact harg12.read_unread _
      iexact HK
    isplitl [HM]
    · iexists _; isplitr; · ipureintro; exact harg11.read_unread _
      iexact HM
    isplitl [H7]
    · iexists _; isplitr; · ipureintro; exact harg8.read_unread _
      iexact H7
    iexists _; iexact HO

end Cert.KernelIdeal.Body

end
-- ==== Proof.IdealFrame.Outs.lean ====
/-
  What each kind of grid point leaves in the buffers it stores into: the pieces its run found, read back. Each store
  of the body writes a whole buffer, so each list of pieces covers its buffer and the read-back does not depend on
  what the buffer held before.
-/
import proofs.«130755_g52209622450808_cont_9to1_m_767_16_alg».proof.Proof.IdealFrame.RunA
import proofs.«130755_g52209622450808_cont_9to1_m_767_16_alg».proof.Proof.IdealFrame.RunB
import proofs.«130755_g52209622450808_cont_9to1_m_767_16_alg».proof.Proof.IdealFrame.RunC
import proofs.«130755_g52209622450808_cont_9to1_m_767_16_alg».proof.Proof.IdealFrame.RunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The views through which the three scratches' and the output buffer's contents are stated (for the output window
    one of its two staging buffers: a covering read-back is the same through either). -/
abbrev VG : View sig .tc .vmem S1024x1024 .f32 := scG.view
abbrev VM : View sig .tc .vmem S1024x256 .bf16 := scM.view
abbrev VK : View sig .tc .vmem S1024x256 .bf16 := scK.view
abbrev VO : View sig .tc .vmem S2000x256 .f32 := (Memref.whole cc0_stg8_0 : Memref sig .tc .vmem S2000x256 .f32).view

/-- What the first point leaves in the Gram scratch. -/
def gA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : condFirst i) (hc2 : ¬condAcc i) (hc3 : ¬condFin i) (hc4 : ¬condAtt i) (x0 : Vec F S1024x1024 .f32) : Vec F S1024x1024 .f32 :=
  VG.read (Elt F) (VG.writes (Elt F) VG.junk (runA c i arg1 harg1 arg2 harg2 arg3 harg3 arg4 harg4 arg5 harg5 arg6 harg6 arg7 harg7 arg8 harg8 arg9 harg9 arg10 harg10 arg11 harg11 arg12 harg12 hc1 hc2 hc3 hc4 x0).1)

/-- Its pieces cover the buffer (one store of the whole buffer). -/
theorem gA_cover (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : condFirst i) (hc2 : ¬condAcc i) (hc3 : ¬condFin i) (hc4 : ¬condAtt i) (x0 : Vec F S1024x1024 .f32) (y : S1024x1024.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x0).1, y ∈ pc.1.set :=
  View.cover_of_tiledL ((runA c i arg1 harg1 arg2 harg2 arg3 harg3 arg4 harg4 arg5 harg5 arg6 harg6 arg7 harg7 arg8 harg8 arg9 harg9 arg10 harg10 arg11 harg11 arg12 harg12 hc1 hc2 hc3 hc4 x0).1) S1024x1024.size (by sl_kernel_rfl) y

/-- What points 1 and 2 leave in the Gram scratch, over what it held. -/
def gB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : ¬condFin i) (hc4 : ¬condAtt i) (x0 : Vec F S1024x1024 .f32) (xg : Vec F S1024x1024 .f32) : Vec F S1024x1024 .f32 :=
  VG.read (Elt F) (VG.writes (Elt F) VG.junk (runB c i arg1 harg1 arg2 harg2 arg3 harg3 arg4 harg4 arg5 harg5 arg6 harg6 arg7 harg7 arg8 harg8 arg9 harg9 arg10 harg10 arg11 harg11 arg12 harg12 hc1 hc2 hc3 hc4 x0 xg).1)

/-- Its pieces cover the buffer (one store of the whole buffer). -/
theorem gB_cover (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : ¬condFin i) (hc4 : ¬condAtt i) (x0 : Vec F S1024x1024 .f32) (xg : Vec F S1024x1024 .f32) (y : S1024x1024.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x0 xg).1, y ∈ pc.1.set :=
  View.cover_of_tiledL ((runB c i arg1 harg1 arg2 harg2 arg3 harg3 arg4 harg4 arg5 harg5 arg6 harg6 arg7 harg7 arg8 harg8 arg9 harg9 arg10 harg10 arg11 harg11 arg12 harg12 hc1 hc2 hc3 hc4 x0 xg).1) S1024x1024.size (by sl_kernel_rfl) y

/-- What point 3 leaves in the Gram scratch. -/
def gC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) : Vec F S1024x1024 .f32 :=
  VG.read (Elt F) (VG.writes (Elt F) VG.junk (runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).1)

/-- Its pieces cover the buffer (one store of the whole buffer). -/
theorem gC_cover (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) (y : S1024x1024.Idx) :
    ∃ pc ∈ (runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).1, y ∈ pc.1.set :=
  View.cover_of_tiledL ((runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).1) S1024x1024.size (by sl_kernel_rfl) y

/-- What point 3 leaves in the scratch of mixed values. -/
def mC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) : Vec F S1024x256 .bf16 :=
  VM.read (Elt F) (VM.writes (Elt F) VM.junk (runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).2.1)

/-- Its pieces cover the buffer (one store of the whole buffer). -/
theorem mC_cover (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) (y : S1024x256.Idx) :
    ∃ pc ∈ (runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).2.1, y ∈ pc.1.set :=
  View.cover_of_tiledL ((runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).2.1) S1024x256.size (by sl_kernel_rfl) y

/-- What point 3 leaves in the scratch of scaled keys. -/
def kC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) : Vec F S1024x256 .bf16 :=
  VK.read (Elt F) (VK.writes (Elt F) VK.junk (runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).2.2.1)

/-- Its pieces cover the buffer (one store of the whole buffer). -/
theorem kC_cover (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) (y : S1024x256.Idx) :
    ∃ pc ∈ (runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).2.2.1, y ∈ pc.1.set :=
  View.cover_of_tiledL ((runC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3).2.2.1) S1024x256.size (by sl_kernel_rfl) y

/-- What points 4 to 8 leave in the output window's buffer. -/
def oD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : ¬condAcc i) (hc3 : ¬condFin i) (hc4 : condAtt i) (x4 : Vec F S2000x256 .f32) (x5 : Vec F S256x256 .f32) (x6 : Vec F S1x256 .f32) (xk : Vec F S1024x256 .bf16) (xm : Vec F S1024x256 .bf16) (x7 : Vec F S1024x128 .bf16) : Vec F S2000x256 .f32 :=
  VO.read (Elt F) (VO.writes (Elt F) VO.junk (runD c i arg1 harg1 arg2 harg2 arg3 harg3 arg4 harg4 arg5 harg5 arg6 harg6 arg7 harg7 arg8 harg8 arg9 harg9 arg10 harg10 arg11 harg11 arg12 harg12 hc1 hc2 hc3 hc4 x4 x5 x6 xk xm x7).1)

/-- Its pieces cover the buffer (one store of the whole buffer). -/
theorem oD_cover (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : ¬condAcc i) (hc3 : ¬condFin i) (hc4 : condAtt i) (x4 : Vec F S2000x256 .f32) (x5 : Vec F S256x256 .f32) (x6 : Vec F S1x256 .f32) (xk : Vec F S1024x256 .bf16) (xm : Vec F S1024x256 .bf16) (x7 : Vec F S1024x128 .bf16) (y : S2000x256.Idx) :
    ∃ pc ∈ (runD c i arg1 harg1 arg2 harg2 arg3 harg3 arg4 harg4 arg5 harg5 arg6 harg6 arg7 harg7 arg8 harg8 arg9 harg9 arg10 harg10 arg11 harg11 arg12 harg12 hc1 hc2 hc3 hc4 x4 x5 x6 xk xm x7).1, y ∈ pc.1.set :=
  View.cover_of_tiledL ((runD c i arg1 harg1 arg2 harg2 arg3 harg3 arg4 harg4 arg5 harg5 arg6 harg6 arg7 harg7 arg8 harg8 arg9 harg9 arg10 harg10 arg11 harg11 arg12 harg12 hc1 hc2 hc3 hc4 x4 x5 x6 xk xm x7).1) S2000x256.size (by sl_kernel_rfl) y

end Cert.KernelIdeal.Body

end
-- ==== Proof.IdealFrame.State.lean ====
/-
  What the three scratches and the output window's buffer hold after each grid point, the invariant the body keeps
  between points, and the pipeline's proof data.

  After point 0 the Gram scratch holds the first chunk's Gram matrix; after points 1, 2 and 3 that of the chunks so
  far; point 3 also fills the other two scratches, which the later points only read; points 4 to 8 each fill the
  output window's buffer. Before point 3 has run the second and third scratch hold anything.
-/
import proofs.«130755_g52209622450808_cont_9to1_m_767_16_alg».proof.Proof.IdealFrame.Outs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each kind of point, called at a grid point -/

/-- The run of the first point's kind at point `t`. -/
abbrev runA_at (c : Dev nD) (t : Fin cfg0.N) (h : t.val = 0) (x0 : Vec F S1024x1024 .f32) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) ((hcondFirst t).mpr h) (fun hh => by have := (hcondAcc t).mp hh; omega) (fun hh => by have := (hcondFin t).mp hh; omega) (fun hh => by have := (hcondAtt t).mp hh; omega) x0
/-- The run of the second kind at point `t`. -/
abbrev runB_at (c : Dev nD) (t : Fin cfg0.N) (h : 0 < t.val ∧ t.val < 3) (x0 : Vec F S1024x1024 .f32) (xg : Vec F S1024x1024 .f32) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) ((hcondAcc t).mpr ⟨h.1, by omega⟩) (fun hh => by have := (hcondFin t).mp hh; omega) (fun hh => by have := (hcondAtt t).mp hh; omega) x0 xg
/-- The run of the third kind at point `t`. -/
abbrev runC_at (c : Dev nD) (t : Fin cfg0.N) (h : t.val = 3) (x0 : Vec F S1024x1024 .f32) (xg : Vec F S1024x1024 .f32) (x1 : Vec F S1024x256 .f32) (x2 : Vec F S256x256 .f32) (x3 : Vec F S1x256 .f32) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) ((hcondAcc t).mpr ⟨by omega, by omega⟩) ((hcondFin t).mpr h) (fun hh => by have := (hcondAtt t).mp hh; omega) x0 xg x1 x2 x3
/-- The run of the fourth kind at point `t`. -/
abbrev runD_at (c : Dev nD) (t : Fin cfg0.N) (h : 4 ≤ t.val) (x4 : Vec F S2000x256 .f32) (x5 : Vec F S256x256 .f32) (x6 : Vec F S1x256 .f32) (xk : Vec F S1024x256 .bf16) (xm : Vec F S1024x256 .bf16) (x7 : Vec F S1024x128 .bf16) :=
  runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) (fun hh => by have := (hcondAcc t).mp hh; omega) (fun hh => by have := (hcondFin t).mp hh; omega) ((hcondAtt t).mpr h) x4 x5 x6 xk xm x7
/-- The Gram scratch after point 0. -/
abbrev gA_at (c : Dev nD) (t : Fin cfg0.N) (h : t.val = 0) (x0 : Vec F S1024x1024 .f32) : Vec F S1024x1024 .f32 :=
  gA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) ((hcondFirst t).mpr h) (fun hh => by have := (hcondAcc t).mp hh; omega) (fun hh => by have := (hcondFin t).mp hh; omega) (fun hh => by have := (hcondAtt t).mp hh; omega) x0
/-- The Gram scratch after point 1 or 2. -/
abbrev gB_at (c : Dev nD) (t : Fin cfg0.N) (h : 0 < t.val ∧ t.val < 3) (x0 : Vec F S1024x1024 .f32) (xg : Vec F S1024x1024 .f32) : Vec F S1024x1024 .f32 :=
  gB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) ((hcondAcc t).mpr ⟨h.1, by omega⟩) (fun hh => by have := (hcondFin t).mp hh; omega) (fun hh => by have := (hcondAtt t).mp hh; omega) x0 xg
/-- The Gram scratch after point 3. -/
abbrev gC_at (c : Dev nD) (t : Fin cfg0.N) (h : t.val = 3) (x0 : Vec F S1024x1024 .f32) (xg : Vec F S1024x1024 .f32) (x1 : Vec F S1024x256 .f32) (x2 : Vec F S256x256 .f32) (x3 : Vec F S1x256 .f32) : Vec F S1024x1024 .f32 :=
  gC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) ((hcondAcc t).mpr ⟨by omega, by omega⟩) ((hcondFin t).mpr h) (fun hh => by have := (hcondAtt t).mp hh; omega) x0 xg x1 x2 x3
/-- The mixed values after point 3. -/
abbrev mC_at (c : Dev nD) (t : Fin cfg0.N) (h : t.val = 3) (x0 : Vec F S1024x1024 .f32) (xg : Vec F S1024x1024 .f32) (x1 : Vec F S1024x256 .f32) (x2 : Vec F S256x256 .f32) (x3 : Vec F S1x256 .f32) : Vec F S1024x256 .bf16 :=
  mC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) ((hcondAcc t).mpr ⟨by omega, by omega⟩) ((hcondFin t).mpr h) (fun hh => by have := (hcondAtt t).mp hh; omega) x0 xg x1 x2 x3
/-- The scaled keys after point 3. -/
abbrev kC_at (c : Dev nD) (t : Fin cfg0.N) (h : t.val = 3) (x0 : Vec F S1024x1024 .f32) (xg : Vec F S1024x1024 .f32) (x1 : Vec F S1024x256 .f32) (x2 : Vec F S256x256 .f32) (x3 : Vec F S1x256 .f32) : Vec F S1024x256 .bf16 :=
  kC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) ((hcondAcc t).mpr ⟨by omega, by omega⟩) ((hcondFin t).mpr h) (fun hh => by have := (hcondAtt t).mp hh; omega) x0 xg x1 x2 x3
/-- The output window's buffer after a point from 4 on. -/
abbrev oD_at (c : Dev nD) (t : Fin cfg0.N) (h : 4 ≤ t.val) (x4 : Vec F S2000x256 .f32) (x5 : Vec F S256x256 .f32) (x6 : Vec F S1x256 .f32) (xk : Vec F S1024x256 .bf16) (xm : Vec F S1024x256 .bf16) (x7 : Vec F S1024x128 .bf16) : Vec F S2000x256 .f32 :=
  oD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG (Memref.isWhole_whole _) scM (Memref.isWhole_whole _) scK (Memref.isWhole_whole _) (fun hh => by have := (hcondFirst t).mp hh; omega) (fun hh => by have := (hcondAcc t).mp hh; omega) (fun hh => by have := (hcondFin t).mp hh; omega) ((hcondAtt t).mpr h) x4 x5 x6 xk xm x7

/-! ## The contents after each point -/

/-- Placeholders for a buffer nothing has been stored into yet (never consulted). -/
def noM : Vec F S1024x256 .bf16 := VM.read (Elt F) VM.junk
def noK : Vec F S1024x256 .bf16 := VK.read (Elt F) VK.junk
def noO : Vec F S2000x256 .f32 := VO.read (Elt F) VO.junk

/-- The Gram scratch, the mixed values, the scaled keys and the output window's buffer after the body at position
    `n`: by recursion on the point, each kind of point over what the point before left. -/
def stAt (c : Dev nD) : (n : ℕ) → n < cfg0.N → Vec F S1024x1024 .f32 × Vec F S1024x256 .bf16 × Vec F S1024x256 .bf16 × Vec F S2000x256 .f32
  | 0, hn => (gA_at c ⟨0, hn⟩ rfl (iblk m c 0 ⟨0, hn⟩), noM, noK, noO)
  | n + 1, hn =>
    if h4 : 4 ≤ n + 1 then
      ((stAt c n (Nat.lt_of_succ_lt hn)).1, (stAt c n (Nat.lt_of_succ_lt hn)).2.1, (stAt c n (Nat.lt_of_succ_lt hn)).2.2.1,
        oD_at c ⟨n + 1, hn⟩ h4 (iblk m c 4 ⟨n + 1, hn⟩) (iblk m c 5 ⟨n + 1, hn⟩) (iblk m c 6 ⟨n + 1, hn⟩)
          (stAt c n (Nat.lt_of_succ_lt hn)).2.2.1 (stAt c n (Nat.lt_of_succ_lt hn)).2.1 (iblk m c 7 ⟨n + 1, hn⟩))
    else if h3 : n + 1 = 3 then
      (gC_at c ⟨n + 1, hn⟩ h3 (iblk m c 0 ⟨n + 1, hn⟩) (stAt c n (Nat.lt_of_succ_lt hn)).1 (iblk m c 1 ⟨n + 1, hn⟩) (iblk m c 2 ⟨n + 1, hn⟩) (iblk m c 3 ⟨n + 1, hn⟩),
        mC_at c ⟨n + 1, hn⟩ h3 (iblk m c 0 ⟨n + 1, hn⟩) (stAt c n (Nat.lt_of_succ_lt hn)).1 (iblk m c 1 ⟨n + 1, hn⟩) (iblk m c 2 ⟨n + 1, hn⟩) (iblk m c 3 ⟨n + 1, hn⟩),
        kC_at c ⟨n + 1, hn⟩ h3 (iblk m c 0 ⟨n + 1, hn⟩) (stAt c n (Nat.lt_of_succ_lt hn)).1 (iblk m c 1 ⟨n + 1, hn⟩) (iblk m c 2 ⟨n + 1, hn⟩) (iblk m c 3 ⟨n + 1, hn⟩),
        noO)
    else
      (gB_at c ⟨n + 1, hn⟩ ⟨Nat.succ_pos n, (by omega : n + 1 < 3)⟩ (iblk m c 0 ⟨n + 1, hn⟩) (stAt c n (Nat.lt_of_succ_lt hn)).1, noM, noK, noO)

/-- The point before `t`. -/
abbrev prevLt (t : Fin cfg0.N) : t.val - 1 < cfg0.N := Nat.lt_of_le_of_lt (Nat.sub_le _ _) t.isLt

theorem stAt_A (c : Dev nD) (t : Fin cfg0.N) (h : t.val = 0) :
    stAt m c t.val t.isLt = (gA_at c t h (iblk m c 0 t), noM, noK, noO) := by
  obtain ⟨n, hn⟩ := t
  cases n with
  | zero => exact rfl
  | succ n => exact absurd h (Nat.succ_ne_zero n)

theorem stAt_B (c : Dev nD) (t : Fin cfg0.N) (h : 0 < t.val ∧ t.val < 3) :
    stAt m c t.val t.isLt = (gB_at c t h (iblk m c 0 t) (stAt m c (t.val - 1) (prevLt t)).1, noM, noK, noO) := by
  obtain ⟨n, hn⟩ := t
  cases n with
  | zero => exact absurd h.1 (Nat.lt_irrefl 0)
  | succ n => exact (dif_neg (by dsimp only at h; omega)).trans ((dif_neg (by dsimp only at h; omega)).trans rfl)

theorem stAt_C (c : Dev nD) (t : Fin cfg0.N) (h : t.val = 3) :
    stAt m c t.val t.isLt = (gC_at c t h (iblk m c 0 t) (stAt m c (t.val - 1) (prevLt t)).1 (iblk m c 1 t) (iblk m c 2 t) (iblk m c 3 t),
      mC_at c t h (iblk m c 0 t) (stAt m c (t.val - 1) (prevLt t)).1 (iblk m c 1 t) (iblk m c 2 t) (iblk m c 3 t),
      kC_at c t h (iblk m c 0 t) (stAt m c (t.val - 1) (prevLt t)).1 (iblk m c 1 t) (iblk m c 2 t) (iblk m c 3 t), noO) := by
  obtain ⟨n, hn⟩ := t
  cases n with
  | zero => exfalso; dsimp only at h; omega
  | succ n => exact (dif_neg (by dsimp only at h; omega)).trans ((dif_pos (by dsimp only at h; omega)).trans rfl)

theorem stAt_D (c : Dev nD) (t : Fin cfg0.N) (h : 4 ≤ t.val) :
    stAt m c t.val t.isLt = ((stAt m c (t.val - 1) (prevLt t)).1, (stAt m c (t.val - 1) (prevLt t)).2.1, (stAt m c (t.val - 1) (prevLt t)).2.2.1,
      oD_at c t h (iblk m c 4 t) (iblk m c 5 t) (iblk m c 6 t) (stAt m c (t.val - 1) (prevLt t)).2.2.1 (stAt m c (t.val - 1) (prevLt t)).2.1 (iblk m c 7 t)) := by
  obtain ⟨n, hn⟩ := t
  cases n with
  | zero => exfalso; dsimp only at h; omega
  | succ n => exact (dif_pos (by dsimp only at h; omega)).trans rfl

/-! ## The invariant between points -/

/-- Before position `n`: before the first point what the launch hands over (every scratch at anything); after points
    0, 1 and 2 the Gram scratch at what the point left and the other two at anything; from point 3 on all three at
    what the point left. The generator register is at some state throughout. -/
def PhiS (c : Dev nD) : (n : ℕ) → n ≤ cfg0.N → sProp 𝕄
  | 0, _ => Pipeline.ΦA spec0 c
  | n + 1, hn =>
    if n < 3 then
      iprop(iprop(owns (c : Thread nD τ) scG fullShare (stAt m c n hn).1 ∗ (∃ d, owns (c : Thread nD τ) scM fullShare d) ∗ (∃ d, owns (c : Thread nD τ) scK fullShare d)) ∗ (∃ r, prngReg c r))
    else
      iprop(iprop(owns (c : Thread nD τ) scG fullShare (stAt m c n hn).1 ∗ owns (c : Thread nD τ) scM fullShare (stAt m c n hn).2.1 ∗ owns (c : Thread nD τ) scK fullShare (stAt m c n hn).2.2.1) ∗ (∃ r, prngReg c r))

theorem PhiS_zero (c : Dev nD) (n : ℕ) (h : n ≤ cfg0.N) (hz : n = 0) : PhiS m c n h = Pipeline.ΦA spec0 c := by
  subst hz; rfl

theorem PhiS_succ_early (c : Dev nD) (n : ℕ) (hn : n < cfg0.N) (h3 : n < 3) :
    PhiS m c (n + 1) hn = iprop(iprop(owns (c : Thread nD τ) scG fullShare (stAt m c n hn).1 ∗ (∃ d, owns (c : Thread nD τ) scM fullShare d) ∗ (∃ d, owns (c : Thread nD τ) scK fullShare d)) ∗ (∃ r, prngReg c r)) :=
  if_pos h3

theorem PhiS_succ_late (c : Dev nD) (n : ℕ) (hn : n < cfg0.N) (h3 : ¬n < 3) :
    PhiS m c (n + 1) hn = iprop(iprop(owns (c : Thread nD τ) scG fullShare (stAt m c n hn).1 ∗ owns (c : Thread nD τ) scM fullShare (stAt m c n hn).2.1 ∗ owns (c : Thread nD τ) scK fullShare (stAt m c n hn).2.2.1) ∗ (∃ r, prngReg c r)) :=
  if_neg h3

theorem PhiS_pos_early (c : Dev nD) (n : ℕ) (h : n ≤ cfg0.N) (hz : n ≠ 0) (h3 : n - 1 < 3) :
    PhiS m c n h = iprop(iprop(owns (c : Thread nD τ) scG fullShare (stAt m c (n - 1) (by omega)).1 ∗ (∃ d, owns (c : Thread nD τ) scM fullShare d) ∗ (∃ d, owns (c : Thread nD τ) scK fullShare d)) ∗ (∃ r, prngReg c r)) := by
  cases n with
  | zero => exact absurd rfl hz
  | succ n => exact if_pos h3

theorem PhiS_pos_late (c : Dev nD) (n : ℕ) (h : n ≤ cfg0.N) (hz : n ≠ 0) (h3 : ¬n - 1 < 3) :
    PhiS m c n h = iprop(iprop(owns (c : Thread nD τ) scG fullShare (stAt m c (n - 1) (by omega)).1 ∗ owns (c : Thread nD τ) scM fullShare (stAt m c (n - 1) (by omega)).2.1 ∗ owns (c : Thread nD τ) scK fullShare (stAt m c (n - 1) (by omega)).2.2.1) ∗ (∃ r, prngReg c r)) := by
  cases n with
  | zero => exact absurd rfl hz
  | succ n => exact if_neg h3

/-! ## The pipeline's proof data -/

/-- The proof data of the pipeline on core `c`: the arrays as the region finds them; after the body at point `t`
    each input's buffer at its block and the output's at what the point left; the invariant above; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (stAt m c t.val t.isLt).2.2.2 := by dsimp only [dats]

/-- Each input's current staging buffer holds its block at every point, fetched there or not. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d

end Cert.KernelIdeal.Body

end
-- ==== Proof.IdealFrame.Body.lean ====
/-
  The body obligation: at every grid point the body, called on the windows' current buffers with each input's block in
  place and on the three scratches as the point before left them, runs without fault and leaves the inputs' buffers
  as they were, the scratches and the output window's buffer as the next point expects them.

  The point's kind is decided by its position (0; 1 or 2; 3; 4 to 8). Each kind's run is handed only the buffers it
  touches; every other buffer stays aside and is handed back unchanged. Before point 4 the output window is idle
  and not written back, so its buffer may be left at anything.
-/
import proofs.«130755_g52209622450808_cont_9to1_m_767_16_alg».proof.Proof.IdealFrame.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl]
  have hN : t.val < 9 := lt_of_lt_of_eq t.isLt (show cfg0.N = 9 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases hA : t.val = 0
  · -- the first point
    rw [Dat.leavesExact_idle (dats m 0 c) 8 t (idle8 t (by omega)) (noFlush8 t (by omega))]
    rw [PhiS_succ_early m c t.val t.isLt (by omega), stAt_A m c t hA]
    (try dsimp only); unfold gA_at gA; (try dsimp only)
    rw [PhiS_castSucc m c t, PhiS_zero m c _ _ hA, PhiA_eq]
    iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA_at c t hA (iblk m c 0 t)).2 Set.univ _)
    isplitl [H0]; · iexact H0
    isplitl [HG]; · iexact HG
    iintro ⟨H0, ⟨%eg, HG⟩⟩
    isplitl [HG HM HK Hg]
    · isplitl [HG HM HK]
      · isplitl [HG]
        · unfold owns; iexists _; isplitr
          swap; · iexact HG
          ipureintro; exact View.read_writes_of_cover _ _ _ _ _ (gA_cover c _ _ _ _ _ _ _ _ _ _ _ _ _ _ _ _ _ _ _ _ _ _ _ _ _ _ _ _ _ _)
        isplitl [HM]; · iexact HM
        iexact HK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases hB : t.val < 3
    · -- points 1 and 2
      rw [Dat.leavesExact_idle (dats m 0 c) 8 t (idle8 t (by omega)) (noFlush8 t (by omega))]
      rw [PhiS_succ_early m c t.val t.isLt hB, stAt_B m c t ⟨by omega, hB⟩]
      (try dsimp only); unfold gB_at gB; (try dsimp only)
      rw [PhiS_castSucc m c t, PhiS_pos_early m c _ _ hA (by omega)]
      iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB_at c t ⟨by omega, hB⟩ (iblk m c 0 t) (stAt m c (t.val - 1) (prevLt t)).1).2 Set.univ _)
      isplitl [H0]; · iexact H0
      isplitl [HG]; · iexact HG
      iintro ⟨H0, ⟨%eg, HG⟩⟩
      isplitl [HG HM HK Hg]
      · isplitl [HG HM HK]
        · isplitl [HG]
          · unfold owns; iexists _; isplitr
            swap; · iexact HG
            ipureintro; exact View.read_writes_of_cover _ _ _ _ _ (gB_cover c _ _ _ _ _ _ _ _ _ _ _ _ _ _ _ _ _ _ _ _ _ _ _ _ _ _ _ _ _ _ _)
          isplitl [HM]; · iexact HM
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · by_cases hC : t.val = 3
      · -- point 3
        rw [Dat.leavesExact_idle (dats m 0 c) 8 t (idle8 t (by omega)) (noFlush8 t (by omega))]
        rw [PhiS_succ_late m c t.val t.isLt hB, stAt_C m c t hC]
        (try dsimp only); unfold gC_at mC_at kC_at gC mC kC; (try dsimp only)
        rw [PhiS_castSucc m c t, PhiS_pos_early m c _ _ hA (by omega)]
        iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runC_at c t hC (iblk m c 0 t) (stAt m c (t.val - 1) (prevLt t)).1 (iblk m c 1 t) (iblk m c 2 t) (iblk m c 3 t)).2.2.2 Set.univ _)
        isplitl [H0]; · iexact H0
        isplitl [HG]; · iexact HG
        isplitl [H1]; · iexact H1
        isplitl [H2]; · iexact H2
        isplitl [H3]; · iexact H3
        isplitl [HM]; · iexact HM
        isplitl [HK]; · iexact HK
        iintro ⟨H0, ⟨%eg, HG⟩, H1, H2, H3, ⟨%em, HM⟩, ⟨%ek, HK⟩⟩
        isplitl [HG HM HK Hg]
        · isplitl [HG HM HK]
          · isplitl [HG]
            · unfold owns; iexists _; isplitr
              swap; · iexact HG
              ipureintro; exact View.read_writes_of_cover _ _ _ _ _ (gC_cover c _ _ _ _ _ _ _ _ _ _ _ _ _ _ _ _ _ _ _ _ _ _ _ _ _ _ _ _ _ _ _ _ _ _)
            isplitl [HM]
            · unfold owns; iexists _; isplitr
              swap; · iexact HM
              ipureintro; exact View.read_writes_of_cover _ _ _ _ _ (mC_cover c _ _ _ _ _ _ _ _ _ _ _ _ _ _ _ _ _ _ _ _ _ _ _ _ _ _ _ _ _ _ _ _ _ _)
            unfold owns; iexists _; isplitr
            swap; · iexact HK
            ipureintro; exact View.read_writes_of_cover _ _ _ _ _ (kC_cover c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- points 4 to 8
        have hD : 4 ≤ t.val := by omega
        rw [show (dats m 0 c).leavesExact 8 t = owns (c : Thread nD τ) (ms8 t) fullShare ((dats m 0 c).after 8 t) from by
          unfold Dat.leavesExact; rw [live8 t hD], after8]
        rw [PhiS_succ_late m c t.val t.isLt hB, stAt_D m c t hD]
        (try dsimp only); unfold oD_at oD; (try dsimp only)
        rw [PhiS_castSucc m c t, PhiS_pos_late m c _ _ hA (by omega)]
        iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runD_at c t hD (iblk m c 4 t) (iblk m c 5 t) (iblk m c 6 t) (stAt m c (t.val - 1) (prevLt t)).2.2.1 (stAt m c (t.val - 1) (prevLt t)).2.1 (iblk m c 7 t)).2 Set.univ _)
        isplitl [H4]; · iexact H4
        isplitl [H5]; · iexact H5
        isplitl [H6]; · iexact H6
        isplitl [HK]; · iexact HK
        isplitl [HM]; · iexact HM
        isplitl [H7]; · iexact H7
        isplitl [H8]; · iexists _; iexact H8
        iintro ⟨H4, H5, H6, HK, HM, H7, ⟨%eo, H8⟩⟩
        isplitl [HG HM HK Hg]
        · isplitl [HG HM HK]
          · isplitl [HG]; · iexact HG
            isplitl [HM]; · iexact HM
            iexact HK
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (oD_cover c _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the scratches' contents are forgotten. -/
theorem hout (c : Dev nD) : (dats m 0 c).Φ (Fin.last cfg0.N) ⊢ Pipeline.ΦA spec0 c := by
  have hN : cfg0.N = 9 := N_0
  rw [show (dats m 0 c).Φ (Fin.last cfg0.N) = PhiS m c (Fin.last cfg0.N).val (Nat.le_of_lt_succ (Fin.last cfg0.N).isLt) from rfl,
    PhiS_pos_late m c _ _ (by rw [Fin.val_last]; omega) (by rw [Fin.val_last]; omega), PhiA_eq]
  iintro ⟨⟨HG, HM, HK⟩, Hg⟩
  isplitl [HG HM HK]
  · isplitl [HG]; · iexists _; iexact HG
    isplitl [HM]; · iexists _; iexact HM
    iexists _; iexact HK
  iexact Hg

end Cert.KernelIdeal.Body

end
-- ==== Proof.IdealFrame.Run.lean ====
/-
  The launch: with the body obligation at every point, the invariant handed in before the first point and given back
  after the last, every weakly fair execution of the program terminates without fault with every array of the
  pipeline at what the proof data computes; in particular the argument arrays end unchanged.
-/
import proofs.«130755_g52209622450808_cont_9to1_m_767_16_alg».proof.Proof.IdealFrame.Body

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program to the pipeline's post: each window's array at the proof data's final contents,
    every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program terminates, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.IdealFrame.Pieces.lean ====
/-
  Each buffer a grid point stores into ends at the body's own arithmetic of the values it loaded: the read-back of a
  single store covering the whole buffer is the stored value. At point 3 the body reads the Gram scratch back after
  storing into it, so the mixed values are computed from the value just stored.
-/
import proofs.«130755_g52209622450808_cont_9to1_m_767_16_alg».proof.Proof.IdealFrame.Outs
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole buffer's rectangle. -/
private theorem hz00 : (![0, 0] : Fin 2 → Nat) = fun _ => 0 := funext fun a => by fin_cases a <;> rfl

/-- The first point stores the first chunk's Gram matrix. -/
theorem gA_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : condFirst i) (hc2 : ¬condAcc i) (hc3 : ¬condFin i) (hc4 : ¬condAtt i) (x0 : Vec F S1024x1024 .f32) :
    gA c i arg1 harg1 arg2 harg2 arg3 harg3 arg4 harg4 arg5 harg5 arg6 harg6 arg7 harg7 arg8 harg8 arg9 harg9 arg10 harg10 arg11 harg11 arg12 harg12 hc1 hc2 hc3 hc4 x0 = k0_pay1 x0 := by
  unfold gA
  rw [View.read_writes_eq_canon _ _ _ (gA_cover c i arg1 harg1 arg2 harg2 arg3 harg3 arg4 harg4 arg5 harg5 arg6 harg6 arg7 harg7 arg8 harg8 arg9 harg9 arg10 harg10 arg11 harg11 arg12 harg12 hc1 hc2 hc3 hc4 x0)]
  unfold runA
  dsimp only
  sl_unfold_words
  rw [View.canon_unit_zero hz00]
  simp only [View.readAt_eq_ld, harg1.read_unread, View.ld_unit_zero (S := S1024x1024) hz00]

/-- Points 1 and 2 store their chunk's Gram matrix added to what the scratch held. -/
theorem gB_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : ¬condFin i) (hc4 : ¬condAtt i) (x0 : Vec F S1024x1024 .f32) (xg : Vec F S1024x1024 .f32) :
    gB c i arg1 harg1 arg2 harg2 arg3 harg3 arg4 harg4 arg5 harg5 arg6 harg6 arg7 harg7 arg8 harg8 arg9 harg9 arg10 harg10 arg11 harg11 arg12 harg12 hc1 hc2 hc3 hc4 x0 xg = k0_pay2 x0 xg := by
  unfold gB
  rw [View.read_writes_eq_canon _ _ _ (gB_cover c i arg1 harg1 arg2 harg2 arg3 harg3 arg4 harg4 arg5 harg5 arg6 harg6 arg7 harg7 arg8 harg8 arg9 harg9 arg10 harg10 arg11 harg11 arg12 harg12 hc1 hc2 hc3 hc4 x0 xg)]
  unfold runB
  dsimp only
  sl_unfold_words
  rw [View.canon_unit_zero hz00]
  simp only [View.readAt_eq_ld, harg1.read_unread, harg10.read_unread, View.ld_unit_zero (S := S1024x1024) hz00]

/-- Point 3 does the same to the Gram scratch. -/
theorem gC_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) :
    gC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3 = k0_pay2 x0 xg := by
  unfold gC
  rw [View.read_writes_eq_canon _ _ _ (gC_cover c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3)]
  unfold runC
  dsimp only
  sl_unfold_words
  rw [View.canon_unit_zero hz00]
  simp only [View.readAt_eq_ld, harg1.read_unread, harg10.read_unread, View.ld_unit_zero (S := S1024x1024) hz00]

/-- Point 3 stores the mixed values computed from the Gram matrix it has just stored. -/
theorem mC_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) :
    mC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3 = k0_pay3 (k0_pay2 x0 xg) x1 := by
  unfold mC
  rw [View.read_writes_eq_canon _ _ _ (mC_cover c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3)]
  unfold runC
  dsimp only
  sl_unfold_words
  rw [View.canon_unit_zero hz00]
  simp only [View.readAt_eq_ld, harg1.read_unread, harg10.read_unread, harg2.read_unread,
    View.readCov_unit_zero (S := S1024x1024) _ hz00, View.ld_unit_zero (S := S1024x1024) hz00, View.ld_unit_zero (S := S1024x256) hz00]

/-- Point 3 stores the scaled key projection. -/
theorem kC_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : condAcc i) (hc3 : condFin i) (hc4 : ¬condAtt i) (x0 : Vec F S1024x1024 .f32) (xg : Vec F S1024x1024 .f32) (x1 : Vec F S1024x256 .f32) (x2 : Vec F S256x256 .f32) (x3 : Vec F S1x256 .f32) :
    kC c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3 = k0_pay4 x1 x2 x3 := by
  unfold kC
  rw [View.read_writes_eq_canon _ _ _ (kC_cover c i arg1 harg1 arg2 harg2 arg3 harg3 arg4 harg4 arg5 harg5 arg6 harg6 arg7 harg7 arg8 harg8 arg9 harg9 arg10 harg10 arg11 harg11 arg12 harg12 hc1 hc2 hc3 hc4 x0 xg x1 x2 x3)]
  unfold runC
  dsimp only
  sl_unfold_words
  rw [View.canon_unit_zero hz00]
  simp only [View.readAt_eq_ld, harg2.read_unread, harg3.read_unread, harg4.read_unread,
    View.ld_unit_zero (S := S1024x256) hz00, View.ld_unit_zero (S := S256x256) hz00, View.ld_unit_zero (S := S1x256) hz00]

/-- Points 4 to 8 store a block of attention rows. -/
theorem oD_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬condFirst i) (hc2 : ¬condAcc i) (hc3 : ¬condFin i) (hc4 : condAtt i) (x4 : Vec F S2000x256 .f32) (x5 : Vec F S256x256 .f32) (x6 : Vec F S1x256 .f32) (xk : Vec F S1024x256 .bf16) (xm : Vec F S1024x256 .bf16) (x7 : Vec F S1024x128 .bf16) :
    oD c i arg1 harg1 arg2 harg2 arg3 harg3 arg4 harg4 arg5 harg5 arg6 harg6 arg7 harg7 arg8 harg8 arg9 harg9 arg10 harg10 arg11 harg11 arg12 harg12 hc1 hc2 hc3 hc4 x4 x5 x6 xk xm x7 = k0_pay5 x4 x5 x6 xk xm x7 := by
  unfold oD
  rw [View.read_writes_eq_canon _ _ _ (oD_cover c i arg1 harg1 arg2 harg2 arg3 harg3 arg4 harg4 arg5 harg5 arg6 harg6 arg7 harg7 arg8 harg8 arg9 harg9 arg10 harg10 arg11 harg11 arg12 harg12 hc1 hc2 hc3 hc4 x4 x5 x6 xk xm x7)]
  unfold runD
  dsimp only
  sl_unfold_words
  rw [View.canon_unit_zero hz00]
  simp only [View.readAt_eq_ld, harg5.read_unread, harg6.read_unread, harg7.read_unread, harg12.read_unread,
    harg11.read_unread, harg8.read_unread, View.ld_unit_zero (S := S2000x256) hz00, View.ld_unit_zero (S := S256x256) hz00, View.ld_unit_zero (S := S1x256) hz00,
    View.ld_unit_zero (S := S1024x256) hz00, View.ld_unit_zero (S := S1024x128) hz00]

end Cert.KernelIdeal.Body

end
-- ==== Proof.Consts.lean ====
/-
  The float constants the two programs spell, as the extended reals their patterns denote.
-/
import Idealize.ShloMosaic.PureOps.Ideal
import Idealize.ShloMosaic.PureOps.Ideal.Laws

noncomputable section

namespace Cert.Consts

open Idealize.ShloMosaic

/-- 0.0625, the kernel's scale of the keys: one sixteenth. -/
theorem ofBits_sixteenth : Ideal.ofBits .f32 0x3D800000#32 = ((1 / 16 : ℝ) : EReal) := by
  simp [Ideal.ofBits, Ideal.ieee, -EReal.coe_mul]; norm_num

/-- 16.0, the reference's divisor of the logits. -/
theorem ofBits_sixteen : Ideal.ofBits .f32 0x41800000#32 = ((16 : ℝ) : EReal) := by
  simp [Ideal.ofBits, Ideal.ieee, -EReal.coe_mul]; norm_num

/-- 1.0 in f32, the numerator of the kernel's final reciprocal. -/
theorem ofBits_one : Ideal.ofBits .f32 0x3F800000#32 = 1 := by
  simp [Ideal.ofBits, Ideal.ieee, -EReal.coe_mul]; norm_num

/-- 1.0 in bf16, the entries of the kernel's column of ones. -/
theorem ofBits_one_bf16 : Ideal.ofBits .bf16 0x3F80#16 = 1 := by
  simp [Ideal.ofBits, Ideal.ieee, -EReal.coe_mul]; norm_num

/-- The negative infinity the reference's row maximum starts from. -/
theorem ofBits_neg_inf : Ideal.ofBits .f32 0xFF800000#32 = ⊥ := by
  simp [Ideal.ofBits, Ideal.ieee]

/-- The positive infinity the precondition compares magnitudes against. -/
theorem ofBits_pos_inf : Ideal.ofBits .f32 0x7F800000#32 = ⊤ := by
  simp [Ideal.ofBits, Ideal.ieee]

end Cert.Consts

end
-- ==== Proof.IdealFrame.Blocks.lean ====
/-
  The windows' blocks read at an index, in terms of the argument arrays.

  The window on fix_feat takes 1024 rows at a time, block min i 3 at grid point i; the window on main_feat takes 2000
  rows at a time, block max (i - 4) 0; the other input windows are whole arrays at every point. The two bias rows are
  the bias vectors reshaped to one row by the program before the region, and the column of ones is a constant it
  broadcasts there.
-/
import proofs.«130755_g52209622450808_cont_9to1_m_767_16_alg».proof.Proof.Gen.KernelIdeal.Frame
import proofs.«130755_g52209622450808_cont_9to1_m_767_16_alg».proof.Proof.Consts
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (m : (ℓ : Loc nD τ sig) → Buf (Elt Ideal) ℓ)

/-- Each input window's block at a point, at its literal type. -/
abbrev fixBlk (c : Dev nD) (t : Fin cfg0.N) : Vec Ideal S1024x1024 .f32 := iblk m c 0 t
abbrev otherBlk (c : Dev nD) (t : Fin cfg0.N) : Vec Ideal S1024x256 .f32 := iblk m c 1 t
abbrev wkBlk (c : Dev nD) (t : Fin cfg0.N) : Vec Ideal S256x256 .f32 := iblk m c 2 t
abbrev bkBlk (c : Dev nD) (t : Fin cfg0.N) : Vec Ideal S1x256 .f32 := iblk m c 3 t
abbrev mainBlk (c : Dev nD) (t : Fin cfg0.N) : Vec Ideal S2000x256 .f32 := iblk m c 4 t
abbrev wqBlk (c : Dev nD) (t : Fin cfg0.N) : Vec Ideal S256x256 .f32 := iblk m c 5 t
abbrev bqBlk (c : Dev nD) (t : Fin cfg0.N) : Vec Ideal S1x256 .f32 := iblk m c 6 t
abbrev onesBlk (c : Dev nD) (t : Fin cfg0.N) : Vec Ideal S1024x128 .bf16 := iblk m c 7 t

/-- The argument arrays at their literal types. -/
abbrev mainArr (c : Dev nD) : Vec Ideal S10000x256 .f32 := m ((c.tc : Thread nD τ).loc main_arg0)
abbrev otherArr (c : Dev nD) : Vec Ideal S1024x256 .f32 := m ((c.tc : Thread nD τ).loc main_arg1)
abbrev fixArr (c : Dev nD) : Vec Ideal S4096x1024 .f32 := m ((c.tc : Thread nD τ).loc main_arg2)
abbrev wqArr (c : Dev nD) : Vec Ideal S256x256 .f32 := m ((c.tc : Thread nD τ).loc main_arg3)
abbrev bqArr (c : Dev nD) : Vec Ideal S256 .f32 := m ((c.tc : Thread nD τ).loc main_arg4)
abbrev wkArr (c : Dev nD) : Vec Ideal S256x256 .f32 := m ((c.tc : Thread nD τ).loc main_arg5)
abbrev bkArr (c : Dev nD) : Vec Ideal S256 .f32 := m ((c.tc : Thread nD τ).loc main_arg6)

/-- The windows on whole arrays stay at block (0, 0) at every point. -/
private theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The window on fix_feat is at block (min t 3, 0), the window on main_feat at block (max (t - 4) 0, 0). -/
private theorem idx_moving : ∀ t : Fin cfg0.N,
    win0_0.index t (0 : Fin 2) = min t.val 3 ∧ win0_0.index t (1 : Fin 2) = 0
    ∧ win0_4.index t (0 : Fin 2) = t.val - 4 ∧ win0_4.index t (1 : Fin 2) = 0 :=
  (by decide +kernel : ∀ t : Fin grid0.N, _)

/-- The key bias row as the region finds it: the bias vector in row-major order at one row. -/
private theorem V_main_v1 (c : Dev nD) : (V m c main_v1 : S1x256.Idx → EReal)
    = shapeCast S1x256 (m ((c.tc : Thread nD τ).loc main_arg6) : S256.Idx → EReal) shapeCasts_S256_S1x256 := by
  dsimp only [Gen.V, Gen.hostOps0]
  after_results
  rfl

/-- The query bias row as the region finds it: the bias vector in row-major order at one row. -/
private theorem V_main_v0 (c : Dev nD) : (V m c main_v0 : S1x256.Idx → EReal)
    = shapeCast S1x256 (m ((c.tc : Thread nD τ).loc main_arg4) : S256.Idx → EReal) shapeCasts_S256_S1x256 := by
  dsimp only [Gen.V, Gen.hostOps0]
  after_results
  rfl

/-- The column of ones as the region finds it: the broadcast of the scalar constant. -/
private theorem V_main_v2 (c : Dev nD) : (V m c main_v2 : S1024x128.Idx → EReal)
    = broadcastInDim S1024x128 ![] bcast_S_S1024x128 (constant (F := Ideal) S_ .bf16 0x3F80#16) := by
  dsimp only [Gen.V, Gen.hostOps0]
  after_results

/-- At the first four points the block of fix_feat is rows 1024·t to 1024·t + 1023. -/
theorem fix_block (c : Dev nD) (t : Fin cfg0.N) (ht : t.val < 4) (r i : Fin 1024) :
    fixBlk m c t (ix2 r i) = fixArr m c (ix2 (⟨1024 * t.val + r.val, by omega⟩ : Fin 4096) i) := by
  show V m c main_arg2 (((cfg0.win 0).blk t).view.emb (ix2 r i)) = m ((c.tc : Thread nD τ).loc main_arg2) _
  rw [V_main_arg2]
  refine congrArg _ ?_
  obtain ⟨e0, e1, -⟩ := idx_moving t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * i.val = i.val; omega

theorem other_block (c : Dev nD) (t : Fin cfg0.N) (j : Fin 1024) (e : Fin 256) :
    otherBlk m c t (ix2 j e) = otherArr m c (ix2 j e) := by
  show V m c main_arg1 (((cfg0.win 1).blk t).view.emb (ix2 j e)) = m ((c.tc : Thread nD τ).loc main_arg1) (ix2 j e)
  rw [V_main_arg1]
  refine congrArg _ ?_
  obtain ⟨e0, e1, -⟩ := idx_whole t
  funext a; apply Fin.ext
  match a with
  | ⟨0, _⟩ => show win0_1.index t (0 : Fin 2) * 1024 + 1 * j.val = j.val; omega
  | ⟨1, _⟩ => show win0_1.index t (1 : Fin 2) * 256 + 1 * e.val = e.val; omega

theorem wk_block (c : Dev nD) (t : Fin cfg0.N) (d e : Fin 256) :
    wkBlk m c t (ix2 d e) = wkArr m c (ix2 d e) := by
  show V m c main_arg5 (((cfg0.win 2).blk t).view.emb (ix2 d e)) = m ((c.tc : Thread nD τ).loc main_arg5) (ix2 d e)
  rw [V_main_arg5]
  refine congrArg _ ?_
  obtain ⟨-, -, e0, e1, -⟩ := idx_whole t
  funext a; apply Fin.ext
  match a with
  | ⟨0, _⟩ => show win0_2.index t (0 : Fin 2) * 256 + 1 * d.val = d.val; omega
  | ⟨1, _⟩ => show win0_2.index t (1 : Fin 2) * 256 + 1 * e.val = e.val; omega

/-- The key bias row is the bias vector. -/
theorem bk_block (c : Dev nD) (t : Fin cfg0.N) (d : Fin 256) :
    bkBlk m c t (ix2 (0 : Fin 1) d) = bkArr m c (ix1 d) := by
  have hemb : ((cfg0.win 3).blk t).view.emb (ix2 (0 : Fin 1) d) = (ix2 (0 : Fin 1) d : S1x256.Idx) := by
    obtain ⟨-, -, -, -, e0, e1, -⟩ := idx_whole t
    funext a; apply Fin.ext
    match a with
    | ⟨0, _⟩ => show win0_3.index t (0 : Fin 2) * 1 + 1 * 0 = 0; omega
    | ⟨1, _⟩ => show win0_3.index t (1 : Fin 2) * 256 + 1 * d.val = d.val; omega
  show V m c main_v1 (((cfg0.win 3).blk t).view.emb (ix2 (0 : Fin 1) d)) = m ((c.tc : Thread nD τ).loc main_arg6) (ix1 d)
  rw [hemb]
  refine (congrFun (V_main_v1 m c) (ix2 (0 : Fin 1) d)).trans ?_
  exact shapeCast_apply _ _ _ (ix1 d) (by
    rw [Shape.rowMajor_val_two, Shape.rowMajor_val_one]; show d.val = 0 * 256 + d.val; omega)

/-- From point 4 on the block of main_feat is rows 2000·(t - 4) to 2000·(t - 4) + 1999. -/
theorem main_block (c : Dev nD) (t : Fin cfg0.N) (ht : 4 ≤ t.val) (r : Fin 2000) (e : Fin 256) :
    mainBlk m c t (ix2 r e) = mainArr m c (ix2 (⟨2000 * (t.val - 4) + r.val, by have := t.isLt; have : cfg0.N = 9 := N_0; omega⟩ : Fin 10000) e) := by
  show V m c main_arg0 (((cfg0.win 4).blk t).view.emb (ix2 r e)) = m ((c.tc : Thread nD τ).loc main_arg0) _
  rw [V_main_arg0]
  refine congrArg _ ?_
  obtain ⟨-, -, e0, e1⟩ := idx_moving t
  funext a; apply Fin.ext
  match a with
  | ⟨0, _⟩ => show win0_4.index t (0 : Fin 2) * 2000 + 1 * r.val = 2000 * (t.val - 4) + r.val; omega
  | ⟨1, _⟩ => show win0_4.index t (1 : Fin 2) * 256 + 1 * e.val = e.val; omega

theorem wq_block (c : Dev nD) (t : Fin cfg0.N) (d e : Fin 256) :
    wqBlk m c t (ix2 d e) = wqArr m c (ix2 d e) := by
  show V m c main_arg3 (((cfg0.win 5).blk t).view.emb (ix2 d e)) = m ((c.tc : Thread nD τ).loc main_arg3) (ix2 d e)
  rw [V_main_arg3]
  refine congrArg _ ?_
  obtain ⟨-, -, -, -, -, -, e0, e1, -⟩ := idx_whole t
  funext a; apply Fin.ext
  match a with
  | ⟨0, _⟩ => show win0_5.index t (0 : Fin 2) * 256 + 1 * d.val = d.val; omega
  | ⟨1, _⟩ => show win0_5.index t (1 : Fin 2) * 256 + 1 * e.val = e.val; omega

/-- The query bias row is the bias vector. -/
theorem bq_block (c : Dev nD) (t : Fin cfg0.N) (d : Fin 256) :
    bqBlk m c t (ix2 (0 : Fin 1) d) = bqArr m c (ix1 d) := by
  have hemb : ((cfg0.win 6).blk t).view.emb (ix2 (0 : Fin 1) d) = (ix2 (0 : Fin 1) d : S1x256.Idx) := by
    obtain ⟨-, -, -, -, -, -, -, -, e0, e1, -⟩ := idx_whole t
    funext a; apply Fin.ext
    match a with
    | ⟨0, _⟩ => show win0_6.index t (0 : Fin 2) * 1 + 1 * 0 = 0; omega
    | ⟨1, _⟩ => show win0_6.index t (1 : Fin 2) * 256 + 1 * d.val = d.val; omega
  show V m c main_v0 (((cfg0.win 6).blk t).view.emb (ix2 (0 : Fin 1) d)) = m ((c.tc : Thread nD τ).loc main_arg4) (ix1 d)
  rw [hemb]
  refine (congrFun (V_main_v0 m c) (ix2 (0 : Fin 1) d)).trans ?_
  exact shapeCast_apply _ _ _ (ix1 d) (by
    rw [Shape.rowMajor_val_two, Shape.rowMajor_val_one]; show d.val = 0 * 256 + d.val; omega)

/-- Every entry of the column of ones is one. -/
theorem ones_block (c : Dev nD) (t : Fin cfg0.N) (y : S1024x128.Idx) : onesBlk m c t y = 1 := by
  show V m c main_v2 (((cfg0.win 7).blk t).view.emb y) = (1 : EReal)
  refine (congrFun (V_main_v2 m c) _).trans ?_
  show Ideal.ofBits .bf16 0x3F80#16 = 1
  exact Cert.Consts.ofBits_one_bf16

end Cert.KernelIdeal.Blocks

end
-- ==== Proof.Payload.lean ====
/-
  What each of the kernel body's five stores writes, entry by entry, over the extended reals.
-/
import proofs.«130755_g52209622450808_cont_9to1_m_767_16_alg».proof.Proof.Gen.KernelIdeal.Skeleton
import proofs.«130755_g52209622450808_cont_9to1_m_767_16_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Cert.KernelIdeal Cert.KernelIdeal.Gen ValueIdx

/-! ## Layout operations on a column, read at an index -/

/-- A vector of `a` entries cast to one column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along its rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `1024 × 1024` array over its rows reads, at column `j`, the sum over `i'` of the entries `(i', j)`. -/
theorem colsum_apply (src : FVec Ideal S1024x1024 .f32) (hφ : FKind.Formats .f32)
    (hacc : (0x00000000#32 : BitVec 32) = FKind.add.neutral .f32 hφ) (j : Fin 1024) :
    multiReduction (F := Ideal) .add [0] S1024 src 0x00000000#32 reduces_S1024x1024_S1024 hφ hacc (ix1 j)
      = ∑ i' : Fin 1024, src (ix2 i' j) := by
  refine (Ideal.multiReduction_add_single src 0x00000000#32 reduces_S1024x1024_S1024 hφ hacc (ix1 j)).trans ?_
  refine Finset.sum_congr rfl fun k _ => congrArg src (funext fun ax => Fin.ext ?_)
  match ax with
  | ⟨0, _⟩ => rfl
  | ⟨1, _⟩ => rfl

/-! ## The Gram product: columns against columns -/

theorem lhs_gram_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem lhs_gram_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem rhs_gram_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem rhs_gram_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl
/-- A product that contracts the rows of both operands reads, at `(p, q)`, the sum over the rows of column `p` of the first against column `q` of the second. -/
theorem matmul_gram {φ₁ φ₂ : FTy} (a : FVec Ideal S1024x1024 φ₁) (b : FVec Ideal S1024x1024 φ₂) (p : Fin 1024) (q : Fin 1024) :
    matmul dot_S1024x1024_S1024x1024_S1024x1024_0_0_1_1_n_n none a b (constant (F := Ideal) S1024x1024 .f32 0x00000000#32) (ix2 p q)
      = ∑ k : Fin 1024, a (ix2 k p) * b (ix2 k q) := by
  show FloatOps.matmul dot_S1024x1024_S1024x1024_S1024x1024_0_0_1_1_n_n none a b (constant (F := Ideal) S1024x1024 .f32 0x00000000#32) (ix2 p q) = _
  rw [Ideal.matmul_constant_zero_apply, ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 p q) ((contrEquiv1 dot_S1024x1024_S1024x1024_S1024x1024_0_0_1_1_n_n 1024 rfl rfl).symm k) = ix2 k p := funext fun ax => Fin.ext (by
    match ax with
    | ⟨0, _⟩ => exact (lhs_gram_0 _ _).trans hk
    | ⟨1, _⟩ => exact lhs_gram_1 _ _)
  have er : dot_S1024x1024_S1024x1024_S1024x1024_0_0_1_1_n_n.rhsIdx (ix2 p q) ((contrEquiv1 dot_S1024x1024_S1024x1024_S1024x1024_0_0_1_1_n_n 1024 rfl rfl).symm k) = ix2 k q := funext fun ax => Fin.ext (by
    match ax with
    | ⟨0, _⟩ => exact (rhs_gram_0 _ _).trans hk
    | ⟨1, _⟩ => exact rhs_gram_1 _ _)
  rw [el, er]

/-- The first Gram chunk: entry (i, j) is the sum over the chunk's rows of the products of columns i and j. -/
theorem gram_first (x : Vec Ideal S1024x1024 .f32) (i j : Fin 1024) :
    k0_pay1 (F := Ideal) x (ix2 i j) = ∑ r : Fin 1024, x (ix2 r i) * x (ix2 r j) := by
  unfold k0_pay1
  rw [shapeCast_self]
  exact matmul_gram (φ₁ := .bf16) (φ₂ := .bf16) _ _ i j

/-- A later Gram chunk, added to what the scratch held. -/
theorem gram_acc (x g : Vec Ideal S1024x1024 .f32) (i j : Fin 1024) :
    k0_pay2 (F := Ideal) x g (ix2 i j) = g (ix2 i j) + ∑ r : Fin 1024, x (ix2 r i) * x (ix2 r j) := by
  unfold k0_pay2
  rw [shapeCast_self]
  exact congrArg (g (ix2 i j) + ·) (matmul_gram (φ₁ := .bf16) (φ₂ := .bf16) _ _ i j)

/-! ## The mixed values -/

theorem lhs_mix_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mix_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mix_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mix_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
/-- A plain product reads, at `(p, q)`, the sum over `k` of the first's `(p, k)` against the second's `(k, q)`. -/
theorem matmul_mix {φ₁ φ₂ : FTy} (a : FVec Ideal S1024x1024 φ₁) (b : FVec Ideal S1024x256 φ₂) (p : Fin 1024) (q : Fin 256) :
    matmul dot_S1024x1024_S1024x256_S1024x256_1_0_0_1_n_n none a b (constant (F := Ideal) S1024x256 .f32 0x00000000#32) (ix2 p q)
      = ∑ k : Fin 1024, a (ix2 p k) * b (ix2 k q) := by
  show FloatOps.matmul dot_S1024x1024_S1024x256_S1024x256_1_0_0_1_n_n none a b (constant (F := Ideal) S1024x256 .f32 0x00000000#32) (ix2 p q) = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun ax => Fin.ext (by
    match ax with
    | ⟨0, _⟩ => exact lhs_mix_0 _ _
    | ⟨1, _⟩ => exact (lhs_mix_1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun ax => Fin.ext (by
    match ax with
    | ⟨0, _⟩ => exact (rhs_mix_0 _ _).trans hk
    | ⟨1, _⟩ => exact rhs_mix_1 _ _)
  rw [el, er]

/-- The mixed values from the finished Gram matrix `g` and the key rows `o`. -/
theorem mix (g : Vec Ideal S1024x1024 .f32) (o : Vec Ideal S1024x256 .f32) (i : Fin 1024) (d : Fin 256) :
    k0_pay3 (F := Ideal) g o (ix2 i d)
      = ∑ j : Fin 1024, Ideal.sqrt (g (ix2 i j)) * Ideal.div (o (ix2 j d)) (∑ i' : Fin 1024, Ideal.sqrt (g (ix2 i' j))) := by
  unfold k0_pay3
  rw [shapeCast_self]
  refine (truncf_apply (φ := .f32) (ψ := .bf16) _ _ _).trans ?_
  refine (matmul_mix (φ₁ := .bf16) (φ₂ := .bf16) _ _ i d).trans ?_
  refine Finset.sum_congr rfl fun j _ => ?_
  refine congrArg₂ (· * ·) rfl ?_
  refine (truncf_apply (φ := .f32) (ψ := .bf16) _ _ _).trans ?_
  refine (divf_apply _ _ _).trans ?_
  refine congrArg (Ideal.div (o (ix2 j d))) ?_
  refine (broadcastTo_a1_ab_apply _ _ j d).trans ?_
  refine (shapeCast_a_a1_apply _ _ j (0 : Fin 1)).trans ?_
  exact colsum_apply _ _ _ j

/-! ## The key projection -/

theorem lhs_keys_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_keys_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_keys_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_keys_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q
/-- A product that contracts the columns of both operands reads, at `(p, q)`, the sum over the columns of row `p` of the first against row `q` of the second. -/
theorem matmul_keys {φ₁ φ₂ : FTy} (a : FVec Ideal S1024x256 φ₁) (b : FVec Ideal S256x256 φ₂) (p : Fin 1024) (q : Fin 256) :
    matmul dot_S1024x256_S256x256_S1024x256_1_1_0_0_n_n none a b (constant (F := Ideal) S1024x256 .f32 0x00000000#32) (ix2 p q)
      = ∑ k : Fin 256, a (ix2 p k) * b (ix2 q k) := by
  show FloatOps.matmul dot_S1024x256_S256x256_S1024x256_1_1_0_0_n_n none a b (constant (F := Ideal) S1024x256 .f32 0x00000000#32) (ix2 p q) = _
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 p q) ((contrEquiv1 dot_S1024x256_S256x256_S1024x256_1_1_0_0_n_n 256 rfl rfl).symm k) = ix2 p k := funext fun ax => Fin.ext (by
    match ax with
    | ⟨0, _⟩ => exact lhs_keys_0 _ _
    | ⟨1, _⟩ => exact (lhs_keys_1 _ _).trans hk)
  have er : dot_S1024x256_S256x256_S1024x256_1_1_0_0_n_n.rhsIdx (ix2 p q) ((contrEquiv1 dot_S1024x256_S256x256_S1024x256_1_1_0_0_n_n 256 rfl rfl).symm k) = ix2 q k := funext fun ax => Fin.ext (by
    match ax with
    | ⟨0, _⟩ => exact rhs_keys_0 _ _
    | ⟨1, _⟩ => exact (rhs_keys_1 _ _).trans hk)
  rw [el, er]

/-- The scaled key projection. -/
theorem keys (o : Vec Ideal S1024x256 .f32) (wk : Vec Ideal S256x256 .f32) (bk : Vec Ideal S1x256 .f32) (j : Fin 1024) (d : Fin 256) :
    k0_pay4 (F := Ideal) o wk bk (ix2 j d)
      = ((∑ e : Fin 256, o (ix2 j e) * wk (ix2 d e)) + bk (ix2 (0 : Fin 1) d)) * ((1 / 16 : ℝ) : EReal) := by
  unfold k0_pay4
  rw [shapeCast_self, shapeCast_self]
  refine (truncf_apply (φ := .f32) (ψ := .bf16) _ _ _).trans ?_
  refine (mulf_apply _ _ _).trans ?_
  refine congrArg₂ (· * ·) ?_ Cert.Consts.ofBits_sixteenth
  refine (addf_apply _ _ _).trans ?_
  exact congrArg₂ (· + ·) (matmul_keys (φ₁ := .bf16) (φ₂ := .bf16) _ _ j d) (broadcastTo_1b_ab_apply _ _ j d)

/-! ## One block of attention rows -/

theorem lhs_query_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_query_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem rhs_query_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_query_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q
/-- The query projection's product: at `(p, q)` the sum over the columns of row `p` of the first against row `q` of the second. -/
theorem matmul_query {φ₁ φ₂ : FTy} (a : FVec Ideal S2000x256 φ₁) (b : FVec Ideal S256x256 φ₂) (p : Fin 2000) (q : Fin 256) :
    matmul dot_S2000x256_S256x256_S2000x256_1_1_0_0_n_n none a b (constant (F := Ideal) S2000x256 .f32 0x00000000#32) (ix2 p q)
      = ∑ k : Fin 256, a (ix2 p k) * b (ix2 q k) := by
  show FloatOps.matmul dot_S2000x256_S256x256_S2000x256_1_1_0_0_n_n none a b (constant (F := Ideal) S2000x256 .f32 0x00000000#32) (ix2 p q) = _
  rw [Ideal.matmul_constant_zero_apply, ← Equiv.sum_comp (contrEquiv1 dot_S2000x256_S256x256_S2000x256_1_1_0_0_n_n 256 rfl rfl).symm]
  refine Finset.sum_congr rfl fun k _ => ?_
  have hk := contrEquiv1_symm_val dot_S2000x256_S256x256_S2000x256_1_1_0_0_n_n 256 rfl rfl k
  have el : dot_S2000x256_S256x256_S2000x256_1_1_0_0_n_n.lhsIdx (ix2 p q) ((contrEquiv1 dot_S2000x256_S256x256_S2000x256_1_1_0_0_n_n 256 rfl rfl).symm k) = ix2 p k := funext fun ax => Fin.ext (by
    match ax with
    | ⟨0, _⟩ => exact lhs_query_0 _ _
    | ⟨1, _⟩ => exact (lhs_query_1 _ _).trans hk)
  have er : dot_S2000x256_S256x256_S2000x256_1_1_0_0_n_n.rhsIdx (ix2 p q) ((contrEquiv1 dot_S2000x256_S256x256_S2000x256_1_1_0_0_n_n 256 rfl rfl).symm k) = ix2 q k := funext fun ax => Fin.ext (by
    match ax with
    | ⟨0, _⟩ => exact rhs_query_0 _ _
    | ⟨1, _⟩ => exact (rhs_query_1 _ _).trans hk)
  rw [el, er]

theorem lhs_logit_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem lhs_logit_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem rhs_logit_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem rhs_logit_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q
/-- The logits' product: at `(p, q)` the sum over the columns of query row `p` against key row `q`. -/
theorem matmul_logit {φ₁ φ₂ : FTy} (a : FVec Ideal S2000x256 φ₁) (b : FVec Ideal S1024x256 φ₂) (p : Fin 2000) (q : Fin 1024) :
    matmul dot_S2000x256_S1024x256_S2000x1024_1_1_0_0_n_n none a b (constant (F := Ideal) S2000x1024 .f32 0x00000000#32) (ix2 p q)
      = ∑ k : Fin 256, a (ix2 p k) * b (ix2 q k) := by
  show FloatOps.matmul dot_S2000x256_S1024x256_S2000x1024_1_1_0_0_n_n none a b (constant (F := Ideal) S2000x1024 .f32 0x00000000#32) (ix2 p q) = _
  rw [Ideal.matmul_constant_zero_apply, ← Equiv.sum_comp (contrEquiv1 dot_S2000x256_S1024x256_S2000x1024_1_1_0_0_n_n 256 rfl rfl).symm]
  refine Finset.sum_congr rfl fun k _ => ?_
  have hk := contrEquiv1_symm_val dot_S2000x256_S1024x256_S2000x1024_1_1_0_0_n_n 256 rfl rfl k
  have el : dot_S2000x256_S1024x256_S2000x1024_1_1_0_0_n_n.lhsIdx (ix2 p q) ((contrEquiv1 dot_S2000x256_S1024x256_S2000x1024_1_1_0_0_n_n 256 rfl rfl).symm k) = ix2 p k := funext fun ax => Fin.ext (by
    match ax with
    | ⟨0, _⟩ => exact lhs_logit_0 _ _
    | ⟨1, _⟩ => exact (lhs_logit_1 _ _).trans hk)
  have er : dot_S2000x256_S1024x256_S2000x1024_1_1_0_0_n_n.rhsIdx (ix2 p q) ((contrEquiv1 dot_S2000x256_S1024x256_S2000x1024_1_1_0_0_n_n 256 rfl rfl).symm k) = ix2 q k := funext fun ax => Fin.ext (by
    match ax with
    | ⟨0, _⟩ => exact rhs_logit_0 _ _
    | ⟨1, _⟩ => exact (rhs_logit_1 _ _).trans hk)
  rw [el, er]

theorem lhs_value_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem lhs_value_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
theorem rhs_value_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
theorem rhs_value_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl
/-- The weights against the mixed values, a plain product: at `(p, q)` the sum over `k` of the first's `(p, k)` against the second's `(k, q)`. -/
theorem matmul_value {φ₁ φ₂ : FTy} (a : FVec Ideal S2000x1024 φ₁) (b : FVec Ideal S1024x256 φ₂) (p : Fin 2000) (q : Fin 256) :
    matmul dot_S2000x1024_S1024x256_S2000x256_1_0_0_1_n_n none a b (constant (F := Ideal) S2000x256 .f32 0x00000000#32) (ix2 p q)
      = ∑ k : Fin 1024, a (ix2 p k) * b (ix2 k q) := by
  show FloatOps.matmul dot_S2000x1024_S1024x256_S2000x256_1_0_0_1_n_n none a b (constant (F := Ideal) S2000x256 .f32 0x00000000#32) (ix2 p q) = _
  rw [Ideal.matmul_constant_zero_apply, ← Equiv.sum_comp (contrEquiv1 dot_S2000x1024_S1024x256_S2000x256_1_0_0_1_n_n 1024 rfl rfl).symm]
  refine Finset.sum_congr rfl fun k _ => ?_
  have hk := contrEquiv1_symm_val dot_S2000x1024_S1024x256_S2000x256_1_0_0_1_n_n 1024 rfl rfl k
  have el : dot_S2000x1024_S1024x256_S2000x256_1_0_0_1_n_n.lhsIdx (ix2 p q) ((contrEquiv1 dot_S2000x1024_S1024x256_S2000x256_1_0_0_1_n_n 1024 rfl rfl).symm k) = ix2 p k := funext fun ax => Fin.ext (by
    match ax with
    | ⟨0, _⟩ => exact lhs_value_0 _ _
    | ⟨1, _⟩ => exact (lhs_value_1 _ _).trans hk)
  have er : dot_S2000x1024_S1024x256_S2000x256_1_0_0_1_n_n.rhsIdx (ix2 p q) ((contrEquiv1 dot_S2000x1024_S1024x256_S2000x256_1_0_0_1_n_n 1024 rfl rfl).symm k) = ix2 k q := funext fun ax => Fin.ext (by
    match ax with
    | ⟨0, _⟩ => exact (rhs_value_0 _ _).trans hk
    | ⟨1, _⟩ => exact rhs_value_1 _ _)
  rw [el, er]

theorem lhs_denom_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_denom_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
theorem rhs_denom_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
theorem rhs_denom_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl
/-- The weights against the block of ones, a plain product: at `(p, q)` the sum over `k` of the first's `(p, k)` against the second's `(k, q)`. -/
theorem matmul_denom {φ₁ φ₂ : FTy} (a : FVec Ideal S2000x1024 φ₁) (b : FVec Ideal S1024x128 φ₂) (p : Fin 2000) (q : Fin 128) :
    matmul dot_S2000x1024_S1024x128_S2000x128_1_0_0_1_n_n none a b (constant (F := Ideal) S2000x128 .f32 0x00000000#32) (ix2 p q)
      = ∑ k : Fin 1024, a (ix2 p k) * b (ix2 k q) := by
  show FloatOps.matmul dot_S2000x1024_S1024x128_S2000x128_1_0_0_1_n_n none a b (constant (F := Ideal) S2000x128 .f32 0x00000000#32) (ix2 p q) = _
  rw [Ideal.matmul_constant_zero_apply, ← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 p q) ((contrEquiv1 dot_S2000x1024_S1024x128_S2000x128_1_0_0_1_n_n 1024 rfl rfl).symm k) = ix2 p k := funext fun ax => Fin.ext (by
    match ax with
    | ⟨0, _⟩ => exact lhs_denom_0 _ _
    | ⟨1, _⟩ => exact (lhs_denom_1 _ _).trans hk)
  have er : dot_S2000x1024_S1024x128_S2000x128_1_0_0_1_n_n.rhsIdx (ix2 p q) ((contrEquiv1 dot_S2000x1024_S1024x128_S2000x128_1_0_0_1_n_n 1024 rfl rfl).symm k) = ix2 k q := funext fun ax => Fin.ext (by
    match ax with
    | ⟨0, _⟩ => exact (rhs_denom_0 _ _).trans hk
    | ⟨1, _⟩ => exact rhs_denom_1 _ _)
  rw [el, er]

/-- The exponential of one logit: query row `n` (projected, with its bias) against the stored key row `j`. -/
theorem expLogit_apply (mn : FVec Ideal S2000x256 .f32) (wq : FVec Ideal S256x256 .f32) (bq : FVec Ideal S1x256 .f32)
    (k : FVec Ideal S1024x256 .bf16) (n : Fin 2000) (j : Fin 1024) :
    (truncf .bf16 (exp (matmul dot_S2000x256_S1024x256_S2000x1024_1_1_0_0_n_n none
        (truncf .bf16 (addf (matmul dot_S2000x256_S256x256_S2000x256_1_1_0_0_n_n none (truncf .bf16 mn bitsLt_bf16_f32)
            (truncf .bf16 wq bitsLt_bf16_f32) (constant (F := Ideal) S2000x256 .f32 0x00000000#32))
          (broadcastTo S2000x256 bq broadcasts_S1x256_S2000x256)) bitsLt_bf16_f32)
        k (constant (F := Ideal) S2000x1024 .f32 0x00000000#32))) bitsLt_bf16_f32 : FVec Ideal S2000x1024 .bf16) (ix2 n j)
      = Ideal.exp (∑ e : Fin 256, ((∑ e' : Fin 256, mn (ix2 n e') * wq (ix2 e e')) + bq (ix2 (0 : Fin 1) e)) * k (ix2 j e)) := by
  refine (truncf_apply (φ := .f32) (ψ := .bf16) _ _ _).trans ?_
  refine congrArg Ideal.exp ?_
  refine (matmul_logit (φ₁ := .bf16) (φ₂ := .bf16) _ _ n j).trans ?_
  refine Finset.sum_congr rfl fun e _ => ?_
  refine congrArg₂ (· * ·) ?_ rfl
  refine (truncf_apply (φ := .f32) (ψ := .bf16) _ _ _).trans ?_
  refine (addf_apply _ _ _).trans ?_
  exact congrArg₂ (· + ·) (matmul_query (φ₁ := .bf16) (φ₂ := .bf16) _ _ n e) (broadcastTo_1b_ab_apply _ _ n e)

/-- One block of attention rows from the block `mn` of queries, the stored scaled keys `k` and mixed values `om`. -/
theorem attend (mn : Vec Ideal S2000x256 .f32) (wq : Vec Ideal S256x256 .f32) (bq : Vec Ideal S1x256 .f32)
    (k om : Vec Ideal S1024x256 .bf16) (ones : Vec Ideal S1024x128 .bf16) (hones : ∀ y, ones y = 1)
    (n : Fin 2000) (d : Fin 256) :
    k0_pay5 (F := Ideal) mn wq bq k om ones (ix2 n d)
      = (∑ j : Fin 1024, Ideal.exp (∑ e : Fin 256, ((∑ e' : Fin 256, mn (ix2 n e') * wq (ix2 e e')) + bq (ix2 (0 : Fin 1) e)) * k (ix2 j e)) * om (ix2 j d))
        * Ideal.div 1 (∑ j : Fin 1024, Ideal.exp (∑ e : Fin 256, ((∑ e' : Fin 256, mn (ix2 n e') * wq (ix2 e e')) + bq (ix2 (0 : Fin 1) e)) * k (ix2 j e))) := by
  unfold k0_pay5
  rw [shapeCast_self, shapeCast_self]
  refine (mulf_apply _ _ _).trans ?_
  refine congrArg₂ (· * ·) ?_ ?_
  · refine (matmul_value (φ₁ := .bf16) (φ₂ := .bf16) _ _ n d).trans ?_
    exact Finset.sum_congr rfl fun j _ => congrArg₂ (· * ·) (expLogit_apply mn wq bq k n j) rfl
  · refine (broadcastTo_a1_ab_apply _ _ n d).trans ?_
    refine (divf_apply _ _ _).trans ?_
    refine congrArg₂ Ideal.div Cert.Consts.ofBits_one ?_
    refine (slice2_axis1_apply 0 _ _ n (0 : Fin 1) (0 : Fin 128) rfl).trans ?_
    refine (matmul_denom (φ₁ := .bf16) (φ₂ := .bf16) _ _ n (0 : Fin 128)).trans ?_
    refine Finset.sum_congr rfl fun j _ => ?_
    exact (congrArg₂ (· * ·) (expLogit_apply mn wq bq k n j) (hones _)).trans (mul_one _)

end Cert.KernelIdeal.Payload

end
-- ==== Proof.Spec.lean ====
/-
  The two programs' results as functions of the argument arrays, over the extended reals.

  Both compute an attention output O[n, d] for 10000 query rows against 1024 key rows, the values being the key
  rows of other_feat mixed by a column-normalised matrix built from fix_feat:
    G[i, j]  = Σ_r fix[r, i] · fix[r, j]            (the Gram matrix of fix_feat's columns)
    R[i, j]  = √G[i, j],   c[j] = Σ_i R[i, j]       (its entrywise root and the root's column sums)
    Q = main · Wqᵀ + bq,   K = other · Wkᵀ + bk      (the two projections)
  The kernel scales K by 1/16 before the logits, exponentiates the logits as they are, scales the rows of
  other_feat by 1/c[j] before mixing, and divides by the sum of the exponentials at the very end.
  The reference divides the logits by 16, subtracts each row's maximum before exponentiating, normalises the
  exponentials first, and divides R's entries by c[j] before mixing.
-/
import Idealize.ShloMosaic.PureOps.Ideal
import Idealize.ShloMosaic.Lib.ValueIdx

noncomputable section

namespace Cert.Spec

open Idealize.ShloMosaic

/-- An array of two axes as a function of its two coordinates. -/
abbrev Mat (a b : Nat) := Fin a → Fin b → EReal

/-- The Gram matrix of the columns of `fix`. -/
def gram (fix : Mat 4096 1024) (i j : Fin 1024) : EReal := ∑ r : Fin 4096, fix r i * fix r j

/-- Its entrywise square root. -/
def root (fix : Mat 4096 1024) (i j : Fin 1024) : EReal := Ideal.sqrt (gram fix i j)

/-- The root's column sums. -/
def colsum (fix : Mat 4096 1024) (j : Fin 1024) : EReal := ∑ i : Fin 1024, root fix i j

/-- A projection `x · Wᵀ + b`. -/
def proj {n : Nat} (x : Mat n 256) (W : Mat 256 256) (b : Fin 256 → EReal) (r : Fin n) (d : Fin 256) : EReal :=
  (∑ e : Fin 256, x r e * W d e) + b d

/-! ## The kernel's arrangement -/

/-- The mixed values, the rows of `other` scaled first. -/
def mixK (fix : Mat 4096 1024) (other : Mat 1024 256) (i : Fin 1024) (d : Fin 256) : EReal :=
  ∑ j : Fin 1024, root fix i j * Ideal.div (other j d) (colsum fix j)

/-- The logits, the keys scaled by 1/16 first. -/
def logitK (q : Mat 10000 256) (k : Mat 1024 256) (n : Fin 10000) (j : Fin 1024) : EReal :=
  ∑ d : Fin 256, q n d * (k j d * ((1 / 16 : ℝ) : EReal))

/-- The kernel's result. -/
def outK (main : Mat 10000 256) (other : Mat 1024 256) (fix : Mat 4096 1024) (Wq : Mat 256 256) (bq : Fin 256 → EReal)
    (Wk : Mat 256 256) (bk : Fin 256 → EReal) (n : Fin 10000) (d : Fin 256) : EReal :=
  (∑ j : Fin 1024, Ideal.exp (logitK (proj main Wq bq) (proj other Wk bk) n j) * mixK fix other j d)
    * Ideal.div 1 (∑ j : Fin 1024, Ideal.exp (logitK (proj main Wq bq) (proj other Wk bk) n j))

/-! ## The reference's arrangement -/

/-- The mixed values, the root's entries normalised first. -/
def mixR (fix : Mat 4096 1024) (other : Mat 1024 256) (i : Fin 1024) (d : Fin 256) : EReal :=
  ∑ j : Fin 1024, Ideal.div (root fix i j) (colsum fix j) * other j d

/-- The logits, divided by 16. -/
def logitR (q : Mat 10000 256) (k : Mat 1024 256) (n : Fin 10000) (j : Fin 1024) : EReal :=
  Ideal.div (∑ d : Fin 256, q n d * k j d) ((16 : ℝ) : EReal)

/-- A row's maximum (the least extended real when taken over nothing). -/
def rowmax (a : Fin 1024 → EReal) : EReal := Finset.univ.sup a

/-- The exponentials of a row shifted by its maximum. -/
def shifted (a : Fin 1024 → EReal) (j : Fin 1024) : EReal := Ideal.exp (a j - rowmax a)

/-- The softmax weights of a row. -/
def softmax (a : Fin 1024 → EReal) (j : Fin 1024) : EReal := Ideal.div (shifted a j) (∑ j' : Fin 1024, shifted a j')

/-- The reference's result. -/
def outR (main : Mat 10000 256) (other : Mat 1024 256) (fix : Mat 4096 1024) (Wq : Mat 256 256) (bq : Fin 256 → EReal)
    (Wk : Mat 256 256) (bk : Fin 256 → EReal) (n : Fin 10000) (d : Fin 256) : EReal :=
  ∑ j : Fin 1024, softmax (logitR (proj main Wq bq) (proj other Wk bk) n) j * mixR fix other j d

/-- An array all of whose entries are real numbers. -/
def Real2 {a b : Nat} (x : Mat a b) : Prop := ∀ i j, ∃ r : ℝ, x i j = (r : EReal)
def Real1 {a : Nat} (x : Fin a → EReal) : Prop := ∀ i, ∃ r : ℝ, x i = (r : EReal)

/-- Every column of `fix` has a nonzero entry. -/
def ColsNonzero (fix : Mat 4096 1024) : Prop := ∀ j : Fin 1024, ∃ r : Fin 4096, fix r j ≠ 0

/-- An array of two axes read through its two coordinates. -/
abbrev mat {a b : Nat} (x : (⟨2, ![a, b]⟩ : Shape).Idx → EReal) : Mat a b := fun i j => x (ValueIdx.ix2 i j)

/-- An array of one axis read through its coordinate. -/
abbrev vec {a : Nat} (x : (⟨1, ![a]⟩ : Shape).Idx → EReal) : Fin a → EReal := fun i => x (ValueIdx.ix1 i)

end Cert.Spec

end
-- ==== Proof.IdealFrame.KValue.lean ====
/-
  What the kernel's buffers hold, as functions of the argument arrays over the extended reals: after the first four
  points the Gram scratch holds the Gram matrix of all of fix_feat (the four chunks' partial sums added up), point 3
  leaves the mixed values and the scaled key projection in the other two scratches, the later points leave them as
  they are, and point t ≥ 4 leaves rows 2000·(t - 4) … of the kernel's result in the output window's buffer.
-/
import proofs.«130755_g52209622450808_cont_9to1_m_767_16_alg».proof.Proof.IdealFrame.State
import proofs.«130755_g52209622450808_cont_9to1_m_767_16_alg».proof.Proof.IdealFrame.Pieces
import proofs.«130755_g52209622450808_cont_9to1_m_767_16_alg».proof.Proof.IdealFrame.Blocks
import proofs.«130755_g52209622450808_cont_9to1_m_767_16_alg».proof.Proof.Payload
import proofs.«130755_g52209622450808_cont_9to1_m_767_16_alg».proof.Proof.Spec

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.KernelIdeal.Body Cert.KernelIdeal.Blocks Cert.Spec

variable (m : (ℓ : Loc nD τ sig) → Buf (Elt Ideal) ℓ)

/-! ## Each kind's read-back, called at a grid point, is its payload -/

theorem gA_at_eq (c : Dev nD) (t : Fin cfg0.N) (h : t.val = 0) (x0 : Vec Ideal S1024x1024 .f32) :
    gA_at (F := Ideal) c t h x0 = k0_pay1 x0 :=
  gA_eq c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scG (Memref.isWhole_whole _) scM (Memref.isWhole_whole _) scK
    (Memref.isWhole_whole _) _ _ _ _ x0

theorem gB_at_eq (c : Dev nD) (t : Fin cfg0.N) (h : 0 < t.val ∧ t.val < 3) (x0 xg : Vec Ideal S1024x1024 .f32) :
    gB_at (F := Ideal) c t h x0 xg = k0_pay2 x0 xg :=
  gB_eq c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scG (Memref.isWhole_whole _) scM (Memref.isWhole_whole _) scK
    (Memref.isWhole_whole _) _ _ _ _ x0 xg

theorem gC_at_eq (c : Dev nD) (t : Fin cfg0.N) (h : t.val = 3) (x0 xg : Vec Ideal S1024x1024 .f32)
    (x1 : Vec Ideal S1024x256 .f32) (x2 : Vec Ideal S256x256 .f32) (x3 : Vec Ideal S1x256 .f32) :
    gC_at (F := Ideal) c t h x0 xg x1 x2 x3 = k0_pay2 x0 xg :=
  gC_eq c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scG (Memref.isWhole_whole _) scM (Memref.isWhole_whole _) scK
    (Memref.isWhole_whole _) _ _ _ _ x0 xg x1 x2 x3

theorem mC_at_eq (c : Dev nD) (t : Fin cfg0.N) (h : t.val = 3) (x0 xg : Vec Ideal S1024x1024 .f32)
    (x1 : Vec Ideal S1024x256 .f32) (x2 : Vec Ideal S256x256 .f32) (x3 : Vec Ideal S1x256 .f32) :
    mC_at (F := Ideal) c t h x0 xg x1 x2 x3 = k0_pay3 (k0_pay2 x0 xg) x1 :=
  mC_eq c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scG (Memref.isWhole_whole _) scM (Memref.isWhole_whole _) scK
    (Memref.isWhole_whole _) _ _ _ _ x0 xg x1 x2 x3

theorem kC_at_eq (c : Dev nD) (t : Fin cfg0.N) (h : t.val = 3) (x0 xg : Vec Ideal S1024x1024 .f32)
    (x1 : Vec Ideal S1024x256 .f32) (x2 : Vec Ideal S256x256 .f32) (x3 : Vec Ideal S1x256 .f32) :
    kC_at (F := Ideal) c t h x0 xg x1 x2 x3 = k0_pay4 x1 x2 x3 :=
  kC_eq c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scG (Memref.isWhole_whole _) scM (Memref.isWhole_whole _) scK
    (Memref.isWhole_whole _) _ _ _ _ x0 xg x1 x2 x3

theorem oD_at_eq (c : Dev nD) (t : Fin cfg0.N) (h : 4 ≤ t.val) (x4 : Vec Ideal S2000x256 .f32) (x5 : Vec Ideal S256x256 .f32)
    (x6 : Vec Ideal S1x256 .f32) (xk xm : Vec Ideal S1024x256 .bf16) (x7 : Vec Ideal S1024x128 .bf16) :
    oD_at (F := Ideal) c t h x4 x5 x6 xk xm x7 = k0_pay5 x4 x5 x6 xk xm x7 :=
  oD_eq c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scG (Memref.isWhole_whole _) scM (Memref.isWhole_whole _) scK
    (Memref.isWhole_whole _) _ _ _ _ x4 x5 x6 xk xm x7

/-- The state before point `t`, named by its own number. -/
theorem stAt_prev (c : Dev nD) (t : Fin cfg0.N) (n : ℕ) (hn : n < cfg0.N) (h : t.val - 1 = n) :
    stAt (F := Ideal) m c (t.val - 1) (prevLt t) = stAt m c n hn := by
  subst h; rfl

/-! ## The Gram matrix, a chunk of 1024 rows at a time -/

/-- The product of columns `i` and `j` of an array of 4096 rows at row number `r` (zero past the last row). -/
def colProd (fix : Mat 4096 1024) (i j : Fin 1024) (r : ℕ) : EReal :=
  if h : r < 4096 then fix ⟨r, h⟩ i * fix ⟨r, h⟩ j else 0

/-- The Gram entry over the first `k` rows. -/
def gramUpto (fix : Mat 4096 1024) (i j : Fin 1024) (k : ℕ) : EReal := ∑ r ∈ Finset.range k, colProd fix i j r

theorem gramUpto_zero (fix : Mat 4096 1024) (i j : Fin 1024) : gramUpto fix i j 0 = 0 := Finset.sum_range_zero _

/-- 1024 more rows add their own sum. -/
theorem gramUpto_add (fix : Mat 4096 1024) (i j : Fin 1024) (k : ℕ) :
    gramUpto fix i j (k + 1024) = gramUpto fix i j k + ∑ r : Fin 1024, colProd fix i j (k + r.val) := by
  unfold gramUpto
  rw [Finset.sum_range_add, Fin.sum_univ_eq_sum_range (fun r => colProd fix i j (k + r)) 1024]

/-- Over all 4096 rows it is the Gram entry. -/
theorem gramUpto_all (fix : Mat 4096 1024) (i j : Fin 1024) : gramUpto fix i j 4096 = gram fix i j := by
  unfold gramUpto gram
  rw [← Fin.sum_univ_eq_sum_range (colProd fix i j) 4096]
  exact Finset.sum_congr rfl fun r _ => dif_pos r.isLt

/-- One chunk's products of columns `i` and `j`: those of rows 1024·t to 1024·t + 1023 of the whole array. -/
theorem chunk_sum (c : Dev nD) (t : Fin cfg0.N) (ht : t.val < 4) (i j : Fin 1024) :
    ∑ r : Fin 1024, fixBlk m c t (ix2 r i) * fixBlk m c t (ix2 r j)
      = ∑ r : Fin 1024, colProd (mat (fixArr m c)) i j (1024 * t.val + r.val) := by
  refine Finset.sum_congr rfl fun r _ => ?_
  rw [fix_block m c t ht r i, fix_block m c t ht r j]
  have hlt : 1024 * t.val + r.val < 4096 := by have := r.isLt; omega
  have e : colProd (mat (fixArr m c)) i j (1024 * t.val + r.val)
      = mat (fixArr m c) ⟨1024 * t.val + r.val, hlt⟩ i * mat (fixArr m c) ⟨1024 * t.val + r.val, hlt⟩ j := dif_pos hlt
  exact e.symm

/-- The first point's store: the Gram entries over the first 1024 rows. -/
theorem pay1_value (c : Dev nD) (t : Fin cfg0.N) (ht : t.val = 0) (i j : Fin 1024) :
    k0_pay1 (F := Ideal) (fixBlk m c t) (ix2 i j) = gramUpto (mat (fixArr m c)) i j (1024 * (t.val + 1)) := by
  rw [Payload.gram_first (fixBlk m c t) i j, chunk_sum m c t (by omega) i j, Nat.mul_add_one, gramUpto_add, ht,
    Nat.mul_zero, gramUpto_zero]
  exact (zero_add _).symm

/-- A later point's store: what the scratch held over the rows so far, and this chunk's rows. -/
theorem pay2_value (c : Dev nD) (t : Fin cfg0.N) (ht : t.val < 4) (g : Vec Ideal S1024x1024 .f32) (i j : Fin 1024)
    (hg : g (ix2 i j) = gramUpto (mat (fixArr m c)) i j (1024 * t.val)) :
    k0_pay2 (F := Ideal) (fixBlk m c t) g (ix2 i j) = gramUpto (mat (fixArr m c)) i j (1024 * (t.val + 1)) := by
  rw [Payload.gram_acc (fixBlk m c t) g i j, chunk_sum m c t ht i j, hg, Nat.mul_add_one, gramUpto_add]

/-! ## The three scratches after the first four points -/

/-- After point `n ≤ 3` the Gram scratch holds the Gram entries over the first 1024·(n + 1) rows. -/
theorem gram_scratch (c : Dev nD) : ∀ (n : ℕ) (hn : n < cfg0.N), n ≤ 3 → ∀ i j : Fin 1024,
    (stAt (F := Ideal) m c n hn).1 (ix2 i j) = gramUpto (mat (fixArr m c)) i j (1024 * (n + 1)) := by
  intro n
  induction n with
  | zero =>
    intro hn _ i j
    rw [stAt_A m c ⟨0, hn⟩ rfl]
    dsimp only
    refine (congrFun (gA_at_eq c ⟨0, hn⟩ rfl (fixBlk m c ⟨0, hn⟩)) (ix2 i j)).trans ?_
    exact pay1_value m c ⟨0, hn⟩ rfl i j
  | succ n ih =>
    intro hn h3 i j
    have hp : n < cfg0.N := Nat.lt_of_succ_lt hn
    have hprev := ih hp (by omega) i j
    by_cases hC : n + 1 = 3
    · rw [stAt_C m c ⟨n + 1, hn⟩ hC, stAt_prev m c ⟨n + 1, hn⟩ n hp rfl]
      dsimp only
      refine (congrFun (gC_at_eq c ⟨n + 1, hn⟩ hC (fixBlk m c ⟨n + 1, hn⟩) (stAt m c n hp).1 (otherBlk m c ⟨n + 1, hn⟩)
        (wkBlk m c ⟨n + 1, hn⟩) (bkBlk m c ⟨n + 1, hn⟩)) (ix2 i j)).trans ?_
      exact pay2_value m c ⟨n + 1, hn⟩ (by show n + 1 < 4; omega) (stAt m c n hp).1 i j hprev
    · have hB : 0 < n + 1 ∧ n + 1 < 3 := ⟨Nat.succ_pos n, by omega⟩
      rw [stAt_B m c ⟨n + 1, hn⟩ hB, stAt_prev m c ⟨n + 1, hn⟩ n hp rfl]
      dsimp only
      refine (congrFun (gB_at_eq c ⟨n + 1, hn⟩ hB (fixBlk m c ⟨n + 1, hn⟩) (stAt m c n hp).1) (ix2 i j)).trans ?_
      exact pay2_value m c ⟨n + 1, hn⟩ (by show n + 1 < 4; omega) (stAt m c n hp).1 i j hprev

/-- After point 3 the second scratch holds the mixed values. -/
theorem mix_scratch (c : Dev nD) (h3 : 3 < cfg0.N) (i : Fin 1024) (d : Fin 256) :
    (stAt (F := Ideal) m c 3 h3).2.1 (ix2 i d) = mixK (mat (fixArr m c)) (mat (otherArr m c)) i d := by
  have h2 : 2 < cfg0.N := Nat.lt_of_succ_lt h3
  have hg : ∀ a b : Fin 1024, k0_pay2 (F := Ideal) (fixBlk m c ⟨3, h3⟩) (stAt m c 2 h2).1 (ix2 a b)
      = gram (mat (fixArr m c)) a b := fun a b =>
    (pay2_value m c ⟨3, h3⟩ (by show 3 < 4; omega) (stAt m c 2 h2).1 a b
      (gram_scratch m c 2 h2 (by omega) a b)).trans (gramUpto_all (mat (fixArr m c)) a b)
  rw [stAt_C m c ⟨3, h3⟩ rfl, stAt_prev m c ⟨3, h3⟩ 2 h2 rfl]
  dsimp only
  refine (congrFun (mC_at_eq c ⟨3, h3⟩ rfl (fixBlk m c ⟨3, h3⟩) (stAt m c 2 h2).1 (otherBlk m c ⟨3, h3⟩)
    (wkBlk m c ⟨3, h3⟩) (bkBlk m c ⟨3, h3⟩)) (ix2 i d)).trans ?_
  refine (Payload.mix (k0_pay2 (F := Ideal) (fixBlk m c ⟨3, h3⟩) (stAt m c 2 h2).1) (otherBlk m c ⟨3, h3⟩) i d).trans ?_
  simp only [hg, other_block m c ⟨3, h3⟩]
  rfl

/-- After point 3 the third scratch holds the key projection times one sixteenth. -/
theorem keys_scratch (c : Dev nD) (h3 : 3 < cfg0.N) (j : Fin 1024) (d : Fin 256) :
    (stAt (F := Ideal) m c 3 h3).2.2.1 (ix2 j d)
      = proj (mat (otherArr m c)) (mat (wkArr m c)) (vec (bkArr m c)) j d * ((1 / 16 : ℝ) : EReal) := by
  have h2 : 2 < cfg0.N := Nat.lt_of_succ_lt h3
  rw [stAt_C m c ⟨3, h3⟩ rfl, stAt_prev m c ⟨3, h3⟩ 2 h2 rfl]
  dsimp only
  refine (congrFun (kC_at_eq c ⟨3, h3⟩ rfl (fixBlk m c ⟨3, h3⟩) (stAt m c 2 h2).1 (otherBlk m c ⟨3, h3⟩)
    (wkBlk m c ⟨3, h3⟩) (bkBlk m c ⟨3, h3⟩)) (ix2 j d)).trans ?_
  refine (Payload.keys (otherBlk m c ⟨3, h3⟩) (wkBlk m c ⟨3, h3⟩) (bkBlk m c ⟨3, h3⟩) j d).trans ?_
  simp only [other_block m c ⟨3, h3⟩, wk_block m c ⟨3, h3⟩, bk_block m c ⟨3, h3⟩]
  rfl

/-- From point 3 on the second and third scratch stay as point 3 left them. -/
theorem kept_scratches (c : Dev nD) (h3 : 3 < cfg0.N) : ∀ n : ℕ, 3 ≤ n → ∀ hn : n < cfg0.N,
    (stAt (F := Ideal) m c n hn).2.1 = (stAt m c 3 h3).2.1 ∧ (stAt m c n hn).2.2.1 = (stAt m c 3 h3).2.2.1 := by
  intro n h
  induction n, h using Nat.le_induction with
  | base => intro hn; exact ⟨rfl, rfl⟩
  | succ n h ih =>
    intro hn
    have hp : n < cfg0.N := Nat.lt_of_succ_lt hn
    rw [stAt_D m c ⟨n + 1, hn⟩ (by show 4 ≤ n + 1; omega), stAt_prev m c ⟨n + 1, hn⟩ n hp rfl]
    dsimp only
    exact ih hp

/-- After grid point `t ≥ 4` the output window's buffer holds rows `2000·(t - 4) + r` of the kernel's result. -/
theorem out_block (c : Dev nD) (t : Fin cfg0.N) (ht : 4 ≤ t.val) (r : Fin 2000) (d : Fin 256) :
    (stAt (F := Ideal) m c t.val t.isLt).2.2.2 (ix2 r d)
      = outK (mat (mainArr m c)) (mat (otherArr m c)) (mat (fixArr m c)) (mat (wqArr m c)) (vec (bqArr m c))
          (mat (wkArr m c)) (vec (bkArr m c))
          (⟨2000 * (t.val - 4) + r.val, by have := t.isLt; have : cfg0.N = 9 := N_0; omega⟩ : Fin 10000) d := by
  have h3 : 3 < cfg0.N := by have := t.isLt; omega
  have hk := kept_scratches m c h3 (t.val - 1) (by omega) (prevLt t)
  rw [stAt_D m c t ht]
  dsimp only
  refine (congrFun (oD_at_eq c t ht (mainBlk m c t) (wqBlk m c t) (bqBlk m c t) (stAt m c (t.val - 1) (prevLt t)).2.2.1
    (stAt m c (t.val - 1) (prevLt t)).2.1 (onesBlk m c t)) (ix2 r d)).trans ?_
  refine (Payload.attend (mainBlk m c t) (wqBlk m c t) (bqBlk m c t) (stAt m c (t.val - 1) (prevLt t)).2.2.1
    (stAt m c (t.val - 1) (prevLt t)).2.1 (onesBlk m c t) (ones_block m c t) r d).trans ?_
  rw [hk.1, hk.2]
  simp only [main_block m c t ht, wq_block m c t, bq_block m c t, keys_scratch m c h3, mix_scratch m c h3]
  rfl

end Cert.KernelIdeal.KValue

end
-- ==== Proof.IdealFrame.Final.lean ====
/-
  From the blocks to the array: the output window is written back at points 4 to 8, point t writing rows
  2000·(t - 4) to 2000·(t - 4) + 1999, which together are all 10000 rows; each block written back is that block of the
  specification's kernel-side result, so after the run the result array is that function of the argument arrays.
-/
import proofs.«130755_g52209622450808_cont_9to1_m_767_16_alg».proof.Proof.IdealFrame.Run
import proofs.«130755_g52209622450808_cont_9to1_m_767_16_alg».proof.Proof.IdealFrame.KValue

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.KernelIdeal.Body Cert.KernelIdeal.Blocks Cert.Spec

variable (m : (ℓ : Loc nD τ sig) → Buf (Elt Ideal) ℓ) (ρ : Dev nD → PrngReg)

/-- The kernel's result array: the specification's kernel-side result of the argument arrays, index by index. -/
def result (c : Dev nD) : Vec Ideal S10000x256 .f32 := fun i =>
  outK (mat (mainArr m c)) (mat (otherArr m c)) (mat (fixArr m c)) (mat (wqArr m c)) (vec (bqArr m c))
    (mat (wkArr m c)) (vec (bkArr m c)) (⟨(i 0).val, (i 0).isLt⟩ : Fin 10000) (⟨(i 1).val, (i 1).isLt⟩ : Fin 256)

/-- The output window's block index at point `t` is (t - 4, 0), and it is written back exactly from point 4 on. -/
theorem idx8 : ∀ t : Fin cfg0.N, win0_8.index t (0 : Fin 2) = t.val - 4 ∧ win0_8.index t (1 : Fin 2) = 0 :=
  (by decide +kernel : ∀ t : Fin grid0.N, win0_8.index t (0 : Fin 2) = t.val - 4 ∧ win0_8.index t (1 : Fin 2) = 0)
theorem flush8 : ∀ t : Fin cfg0.N, (cfg0.win 8).flush t = true ↔ 4 ≤ t.val :=
  (by decide +kernel : ∀ t : Fin grid0.N, (cfg0.win 8).flush t = true ↔ 4 ≤ t.val)

/-- An index of the result array is in point `t`'s block iff each coordinate is in the block's range on its axis. -/
theorem mem_blk8 (t : Fin cfg0.N) (i : S10000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v3).slice (win0_8.rect t)).set ↔ _
  rw [View.set_slice_whole, Rect.mem_set_unit]
  exact Iff.rfl

/-- Every index of the result array lies in the block of a point that is written back: row n in that of point
    4 + n / 2000. -/
theorem cover8 (i : S10000x256.Idx) :
    ∃ t : Fin cfg0.N, (cfg0.win 8).flush t = true ∧ i ∈ ((cfg0.win 8).blk t).view.set := by
  have hi0 : (i 0).val < 10000 := (i 0).isLt
  have hi1 : (i 1).val < 256 := (i 1).isLt
  have hN : cfg0.N = 9 := N_0
  refine ⟨⟨4 + (i 0).val / 2000, by omega⟩, (flush8 _).mpr (by show 4 ≤ 4 + (i 0).val / 2000; omega), ?_⟩
  rw [mem_blk8]
  obtain ⟨e0, e1⟩ := idx8 (⟨4 + (i 0).val / 2000, by omega⟩ : Fin cfg0.N)
  intro a
  match a with
  | ⟨0, _⟩ =>
    show win0_8.index _ (0 : Fin 2) * 2000 ≤ (i 0).val ∧ (i 0).val < win0_8.index _ (0 : Fin 2) * 2000 + 2000
    rw [e0]; dsimp only; omega
  | ⟨1, _⟩ =>
    show win0_8.index _ (1 : Fin 2) * 256 ≤ (i 1).val ∧ (i 1).val < win0_8.index _ (1 : Fin 2) * 256 + 256
    rw [e1]; omega

/-- What point `t` writes back is block `t - 4` of the result array. -/
theorem flushed_eq (c : Dev nD) (t : Fin cfg0.N) (hf : (cfg0.win 8).flush t = true) :
    (dats m 0 c).flushed 8 t = ((cfg0.win 8).blk t).view.read (Elt Ideal) (result m c) := by
  have ht : 4 ≤ t.val := (flush8 t).mp hf
  obtain ⟨e0, e1⟩ := idx8 t
  show (cfg0.win 8).cut (grid0.coords t) ((dats m 0 c).after 8 t) = _
  rw [after8]
  funext y
  show (stAt (F := Ideal) m c t.val t.isLt).2.2.2 y = result m c (((cfg0.win 8).blk t).view.emb y)
  have hy : y = ix2 (⟨(y 0).val, (y 0).isLt⟩ : Fin 2000) (⟨(y 1).val, (y 1).isLt⟩ : Fin 256) := by
    funext a; match a with | ⟨0, _⟩ => rfl | ⟨1, _⟩ => rfl
  refine (congrArg (stAt (F := Ideal) m c t.val t.isLt).2.2.2 hy).trans ?_
  rw [Cert.KernelIdeal.KValue.out_block m c t ht]
  unfold result
  congr 1 <;> apply Fin.ext
  · show 2000 * (t.val - 4) + (y 0).val = win0_8.index t (0 : Fin 2) * 2000 + 1 * (y 0).val
    omega
  · show (y 1).val = win0_8.index t (1 : Fin 2) * 256 + 1 * (y 1).val
    omega

/-- After the run the result array holds the specification's kernel-side result. -/
theorem final8 (c : Dev nD) : (dats m 0 c).arrAt 8 cfg0.N = result m c :=
  (dats m 0 c).arrAt_eq_of_cover 8 (result m c) (fun t hf => flushed_eq m c t hf) cover8

/-- The run of the idealized kernel: its result array at the specification's kernel-side result, its arguments
    unchanged. -/
theorem run_value : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (final8 m c),
      ((h c).1 4).trans (((dats m 0 c).arrAt_in 4 rfl _).trans ((A_eq m c 4).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c)⟩)
    (run_main m ρ)

end Cert.KernelIdeal.Final

end
-- ==== Proof.RefValue.lean ====
/-
  The reference's result, index by index, is Proof/Spec.lean's `outR` of the argument arrays.
-/
import proofs.«130755_g52209622450808_cont_9to1_m_767_16_alg».proof.Proof.Gen.ReferenceIdeal.Run
import proofs.«130755_g52209622450808_cont_9to1_m_767_16_alg».proof.Proof.Gen.ReferenceIdeal.Read
import proofs.«130755_g52209622450808_cont_9to1_m_767_16_alg».proof.Proof.Spec
import proofs.«130755_g52209622450808_cont_9to1_m_767_16_alg».proof.Proof.Consts

noncomputable section

namespace Cert.RefValue

open Idealize.ShloMosaic Idealize.SL.Sem Cert.ReferenceIdeal Cert.Spec

section Stages

open Cert.ReferenceIdeal.Gen Cert.ReferenceIdeal.Read Idealize.ShloMosaic.ValueIdx

variable (x0 : (⟨S10000x256, .f32⟩ : BufTy).Contents (Elt Ideal))
  (x1 : (⟨S1024x256, .f32⟩ : BufTy).Contents (Elt Ideal))
  (x2 : (⟨S4096x1024, .f32⟩ : BufTy).Contents (Elt Ideal))
  (x3 : (⟨S256x256, .f32⟩ : BufTy).Contents (Elt Ideal))
  (x4 : (⟨S256, .f32⟩ : BufTy).Contents (Elt Ideal))
  (x5 : (⟨S256x256, .f32⟩ : BufTy).Contents (Elt Ideal))
  (x6 : (⟨S256, .f32⟩ : BufTy).Contents (Elt Ideal))

/-- The query projection: row `n` of the first array against row `e` of its weight, plus the bias at `e`. -/
theorem projQ_value (n : Fin 10000) (e : Fin 256) :
    val_main_v4 (F := Ideal) x0 x3 x4 (ix2 n e) = proj (mat x0) (mat x3) (vec x4) n e := by
  have hl : ∀ k : Fin 256, lidx_main_v1 (ix2 n e) k = ix2 n k := fun k =>
    funext fun a => Fin.ext (by match a with | ⟨0, _⟩ => rfl | ⟨1, _⟩ => rfl)
  have hr : ∀ k : Fin 256, idx_main_v0 (ridx_main_v1 (ix2 n e) k) = ix2 e k := fun k =>
    funext fun a => Fin.ext (by match a with | ⟨0, _⟩ => rfl | ⟨1, _⟩ => rfl)
  have hb : idx_main_v2 (idx_main_v3 (ix2 n e)) = ix1 e :=
    funext fun a => Fin.ext (by match a with | ⟨0, _⟩ => rfl)
  rw [val_main_v4_apply, val_main_v1_apply, val_main_v3_apply, val_main_v2_apply, hb]
  simp only [val_main_v0_apply, hl, hr, Ideal.addf_def]
  rfl

/-- The key projection, likewise. -/
theorem projK_value (j : Fin 1024) (e : Fin 256) :
    val_main_v9 (F := Ideal) x1 x5 x6 (ix2 j e) = proj (mat x1) (mat x5) (vec x6) j e := by
  have hl : ∀ k : Fin 256, lidx_main_v6 (ix2 j e) k = ix2 j k := fun k =>
    funext fun a => Fin.ext (by match a with | ⟨0, _⟩ => rfl | ⟨1, _⟩ => rfl)
  have hr : ∀ k : Fin 256, idx_main_v5 (ridx_main_v6 (ix2 j e) k) = ix2 e k := fun k =>
    funext fun a => Fin.ext (by match a with | ⟨0, _⟩ => rfl | ⟨1, _⟩ => rfl)
  have hb : idx_main_v7 (idx_main_v8 (ix2 j e)) = ix1 e :=
    funext fun a => Fin.ext (by match a with | ⟨0, _⟩ => rfl)
  rw [val_main_v9_apply, val_main_v6_apply, val_main_v8_apply, val_main_v7_apply, hb]
  simp only [val_main_v5_apply, hl, hr, Ideal.addf_def]
  rfl

/-- The logits: the two projections' rows contracted over the 256 features, divided by 16. -/
theorem logit_value (n : Fin 10000) (j : Fin 1024) :
    val_main_v13 (F := Ideal) x0 x1 x3 x4 x5 x6 (ix2 n j)
      = logitR (proj (mat x0) (mat x3) (vec x4)) (proj (mat x1) (mat x5) (vec x6)) n j := by
  have hl : ∀ k : Fin 256, lidx_main_v11 (ix2 n j) k = ix2 n k := fun k =>
    funext fun a => Fin.ext (by match a with | ⟨0, _⟩ => rfl | ⟨1, _⟩ => rfl)
  have hr : ∀ k : Fin 256, idx_main_v10 (ridx_main_v11 (ix2 n j) k) = ix2 j k := fun k =>
    funext fun a => Fin.ext (by match a with | ⟨0, _⟩ => rfl | ⟨1, _⟩ => rfl)
  rw [val_main_v13_apply, val_main_v11_apply, val_main_v12_apply, val_main_cst_apply]
  simp only [val_main_v10_apply, hl, hr, projQ_value, projK_value, Ideal.hostDivf_def, Ideal.ofBits_def,
    Cert.Consts.ofBits_sixteen]
  rfl

/-- The row maximum: the fold of `max` from the least element over the row's logits is their supremum. -/
theorem rowmax_value (n : Fin 10000) :
    val_main_v16 (F := Ideal) x0 x1 x3 x4 x5 x6 (ix1 n)
      = rowmax (logitR (proj (mat x0) (mat x3) (vec x4)) (proj (mat x1) (mat x5) (vec x6)) n) := by
  have hred : S10000x1024.Reduces [1] S10000 := by decide
  have hrow : (val_main_v13 (F := Ideal) x0 x1 x3 x4 x5 x6 ∘ hred.lift (ix1 n))
      = logitR (proj (mat x0) (mat x3) (vec x4)) (proj (mat x1) (mat x5) (vec x6)) n := by
    funext k
    have hk : hred.lift (ix1 n) k = ix2 n k :=
      funext fun a => Fin.ext (by match a with | ⟨0, _⟩ => rfl | ⟨1, _⟩ => rfl)
    rw [Function.comp_apply, hk]
    exact logit_value x0 x1 x3 x4 x5 x6 n k
  rw [val_main_v16_apply, val_main_v15_apply, val_main_cst_1_apply]
  unfold val_main_v14
  rw [Host.reduce_eq_fold_single FloatOps.maximumf _ _ reducesTo_S10000x1024_S10000_d1 hred h_S_, hrow,
    val_main_cst_0_apply]
  simp only [Ideal.maximumf_def, Ideal.ofBits_def, Cert.Consts.ofBits_neg_inf, max_bot_left]
  rfl

/-- The exponentials of a row's logits shifted by the row's maximum. -/
theorem shifted_value (n : Fin 10000) (j : Fin 1024) :
    val_main_v20 (F := Ideal) x0 x1 x3 x4 x5 x6 (ix2 n j)
      = shifted (logitR (proj (mat x0) (mat x3) (vec x4)) (proj (mat x1) (mat x5) (vec x6)) n) j := by
  have hm : idx_main_v17 (idx_main_v18 (ix2 n j)) = ix1 n :=
    funext fun a => Fin.ext (by match a with | ⟨0, _⟩ => rfl)
  rw [val_main_v20_apply, val_main_v19_apply, val_main_v18_apply, val_main_v17_apply, hm, logit_value, rowmax_value]
  rfl

/-- Their sum over the row. -/
theorem sumexp_value (n : Fin 10000) :
    val_main_v21 (F := Ideal) x0 x1 x3 x4 x5 x6 (ix1 n)
      = ∑ j' : Fin 1024, shifted (logitR (proj (mat x0) (mat x3) (vec x4)) (proj (mat x1) (mat x5) (vec x6)) n) j' := by
  have hi : ∀ k : Fin 1024, idx_main_v21 (ix1 n) k = ix2 n k := fun k =>
    funext fun a => Fin.ext (by match a with | ⟨0, _⟩ => rfl | ⟨1, _⟩ => rfl)
  rw [val_main_v21_apply, val_main_cst_2_apply]
  simp only [hi, shifted_value, Ideal.ofBits_def, Ideal.ofBits_zero_f32, zero_add]

/-- The softmax weight: a shifted exponential over the row's sum of them. -/
theorem softmax_value (n : Fin 10000) (j : Fin 1024) :
    val_main_v24 (F := Ideal) x0 x1 x3 x4 x5 x6 (ix2 n j)
      = softmax (logitR (proj (mat x0) (mat x3) (vec x4)) (proj (mat x1) (mat x5) (vec x6)) n) j := by
  have hs : idx_main_v22 (idx_main_v23 (ix2 n j)) = ix1 n :=
    funext fun a => Fin.ext (by match a with | ⟨0, _⟩ => rfl)
  rw [val_main_v24_apply, val_main_v23_apply, val_main_v22_apply, hs, shifted_value, sumexp_value]
  rfl

/-- The Gram entry: columns `i` and `j` of the third array contracted over its 4096 rows. -/
theorem gram_value (i j : Fin 1024) :
    val_main_v26 (F := Ideal) x2 (ix2 i j) = gram (mat x2) i j := by
  have hl : ∀ k : Fin 4096, idx_main_v25 (lidx_main_v26 (ix2 i j) k) = ix2 k i := fun k =>
    funext fun a => Fin.ext (by match a with | ⟨0, _⟩ => rfl | ⟨1, _⟩ => rfl)
  have hr : ∀ k : Fin 4096, ridx_main_v26 (ix2 i j) k = ix2 k j := fun k =>
    funext fun a => Fin.ext (by match a with | ⟨0, _⟩ => rfl | ⟨1, _⟩ => rfl)
  rw [val_main_v26_apply]
  simp only [val_main_v25_apply, hl, hr]
  rfl

/-- Its square root. -/
theorem root_value (i j : Fin 1024) :
    val_main_v27 (F := Ideal) x2 (ix2 i j) = root (mat x2) i j := by
  rw [val_main_v27_apply, gram_value]
  rfl

/-- The root's column sum. -/
theorem colsum_value (j : Fin 1024) :
    val_main_v28 (F := Ideal) x2 (ix1 j) = colsum (mat x2) j := by
  have hi : ∀ k : Fin 1024, idx_main_v28 (ix1 j) k = ix2 k j := fun k =>
    funext fun a => Fin.ext (by match a with | ⟨0, _⟩ => rfl | ⟨1, _⟩ => rfl)
  rw [val_main_v28_apply, val_main_cst_3_apply]
  simp only [hi, root_value, Ideal.ofBits_def, Ideal.ofBits_zero_f32, zero_add]
  rfl

/-- The root's entry over its column's sum. -/
theorem nroot_value (i j : Fin 1024) :
    val_main_v31 (F := Ideal) x2 (ix2 i j) = Ideal.div (root (mat x2) i j) (colsum (mat x2) j) := by
  have hs : idx_main_v29 (idx_main_v30 (ix2 i j)) = ix1 j :=
    funext fun a => Fin.ext (by match a with | ⟨0, _⟩ => rfl)
  rw [val_main_v31_apply, val_main_v30_apply, val_main_v29_apply, hs, root_value, colsum_value]
  rfl

/-- The mixed value: row `i` of the normalised root against column `d` of the second array. -/
theorem mix_value (i : Fin 1024) (d : Fin 256) :
    val_main_v32 (F := Ideal) x1 x2 (ix2 i d) = mixR (mat x2) (mat x1) i d := by
  have hl : ∀ k : Fin 1024, lidx_main_v32 (ix2 i d) k = ix2 i k := fun k =>
    funext fun a => Fin.ext (by match a with | ⟨0, _⟩ => rfl | ⟨1, _⟩ => rfl)
  have hr : ∀ k : Fin 1024, ridx_main_v32 (ix2 i d) k = ix2 k d := fun k =>
    funext fun a => Fin.ext (by match a with | ⟨0, _⟩ => rfl | ⟨1, _⟩ => rfl)
  rw [val_main_v32_apply]
  simp only [hl, hr, nroot_value]
  rfl

/-- The result: the row's softmax weights against column `d` of the mixed values. -/
theorem out_value (n : Fin 10000) (d : Fin 256) :
    val_main_v33 (F := Ideal) x0 x1 x2 x3 x4 x5 x6 (ix2 n d)
      = outR (mat x0) (mat x1) (mat x2) (mat x3) (vec x4) (mat x5) (vec x6) n d := by
  have hl : ∀ k : Fin 1024, lidx_main_v33 (ix2 n d) k = ix2 n k := fun k =>
    funext fun a => Fin.ext (by match a with | ⟨0, _⟩ => rfl | ⟨1, _⟩ => rfl)
  have hr : ∀ k : Fin 1024, ridx_main_v33 (ix2 n d) k = ix2 k d := fun k =>
    funext fun a => Fin.ext (by match a with | ⟨0, _⟩ => rfl | ⟨1, _⟩ => rfl)
  rw [val_main_v33_apply]
  simp only [hl, hr, softmax_value, mix_value]
  rfl

end Stages

/-- The reference run's result term at row `n`, column `d`. -/
theorem ref_value (m : (ℓ : Loc nD τ sig) → Buf (Elt Ideal) ℓ) (c : Dev nD) (n : Fin 10000) (d : Fin 256) :
    Cert.ReferenceIdeal.Value.res_main_v33 (F := Ideal) m c (ValueIdx.ix2 n d)
      = outR (mat (m ((c.tc : Thread nD τ).loc main_arg0))) (mat (m ((c.tc : Thread nD τ).loc main_arg1)))
          (mat (m ((c.tc : Thread nD τ).loc main_arg2))) (mat (m ((c.tc : Thread nD τ).loc main_arg3)))
          (vec (m ((c.tc : Thread nD τ).loc main_arg4))) (mat (m ((c.tc : Thread nD τ).loc main_arg5)))
          (vec (m ((c.tc : Thread nD τ).loc main_arg6))) n d := by
  rw [Cert.ReferenceIdeal.Read.val_main_v33_eq]
  exact out_value _ _ _ _ _ _ _ n d

end Cert.RefValue

end
-- ==== Proof.PreDecode.lean ====
/-
  The precondition read back: six arrays of real numbers, and a nonzero entry in every column of fix_feat.
-/
import proofs.«130755_g52209622450808_cont_9to1_m_767_16_alg».proof.Pre_finite_inputs
import proofs.«130755_g52209622450808_cont_9to1_m_767_16_alg».proof.Proof.Spec
import Idealize.ShloMosaic.Lib.ReduceAll
import Idealize.ShloMosaic.Lib.StableHlo.Predicate

noncomputable section

namespace Cert.PreDecode

open Idealize.ShloMosaic Cert.Spec

/-- The shape of a scalar has one index. -/
local instance : Subsingleton Cert.Pre_finite_inputs.S_.Idx := ⟨fun a b => funext fun d => d.elim0⟩

/-- The pattern 0x7F800000 denotes positive infinity. -/
private theorem ofBits_pos_inf : Ideal.ofBits .f32 0x7F800000#32 = ⊤ := by
  simp [Ideal.ofBits, Ideal.ieee]

/-- An extended real whose magnitude is below positive infinity is a real number. -/
private theorem real_of_abs_lt_top (x : EReal) (h : Ideal.cmp .olt (max x (-x)) ⊤ = 1#1) : ∃ r : ℝ, x = (r : EReal) := by
  have hlt : max x (-x) < ⊤ := by
    simpa [Ideal.cmp, StableHlo.Predicate.ofBool_eq_one_iff] using h
  induction x using EReal.rec with
  | bot => simp at hlt
  | coe r => exact ⟨r, rfl⟩
  | top => simp at hlt

/-- One element of the compare of magnitudes against the broadcast infinity: the entry is real. -/
private theorem real_of_elem {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  apply real_of_abs_lt_top
  have e : cmpf .olt (Host.absf x) (broadcastInDim s ![] hb (constant Cert.Pre_finite_inputs.S_ .f32 0x7F800000#32)) i
      = Ideal.cmp .olt (max (x i) (-(x i))) (Ideal.ofBits .f32 0x7F800000#32) := rfl
  rw [e, ofBits_pos_inf] at h
  exact h

/-- A left fold by `or` over `i1` words that came out 1 started at 1 or met a 1. -/
private theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduce by `or` from the constant 0 that is 1 at `j` had a 1 at some operand index that reduces into `j`. -/
private theorem reduce_ori_eq_one {s t u : Shape} {axes : List (Fin s.rank)} (x : s.Idx → BitVec 1) (init : u.Idx → BitVec 1)
    (h : s.ReducesTo axes t) (hu : 0 < u.numel) (hinit : init (Shape.Idx.first hu) = 0#1)
    (j : t.Idx) (e : Host.reduce IntOp.ori x init h hu j = 1#1) : ∃ i : s.Idx, h.drop i = j ∧ x i = 1#1 := by
  rw [Host.reduce_eq_foldl] at e
  rcases foldl_ori_eq_one x _ _ e with h0 | ⟨i, hi, hx⟩
  · rw [hinit] at h0; exact absurd h0 (by decide)
  · rw [List.mem_filter] at hi
    exact ⟨i, by simpa using hi.2, hx⟩

/-- The pattern 0 denotes zero. -/
private theorem ofBits_zero : Ideal.ofBits .f32 0x00000000#32 = 0 := by
  simp [Ideal.ofBits, Ideal.ieee]

/-- One element of the compare of an array against the broadcast zero for inequality: the entry is not zero. -/
private theorem ne_zero_of_elem {s : Shape} (hb : Cert.Pre_finite_inputs.S_.BroadcastsInDim s (![] : Fin 0 → Fin s.rank))
    (x : FVec Ideal s .f32) (i : s.Idx)
    (h : cmpf .une x (broadcastInDim s ![] hb (constant Cert.Pre_finite_inputs.S_ .f32 0x00000000#32)) i = 1#1) :
    x i ≠ 0 := by
  have e : cmpf .une x (broadcastInDim s ![] hb (constant Cert.Pre_finite_inputs.S_ .f32 0x00000000#32)) i
      = Ideal.cmp .une (x i) (Ideal.ofBits .f32 0x00000000#32) := rfl
  rw [e, ofBits_zero] at h
  simpa [Ideal.cmp, StableHlo.Predicate.ofBool_eq_one_iff] using h

/-- An index of the rectangle that reduces, along the rows, into column `j` lies in column `j`. -/
private theorem col_of_drop (h : Cert.Pre_finite_inputs.S4096x1024.ReducesTo [0] Cert.Pre_finite_inputs.S1024)
    (i : Cert.Pre_finite_inputs.S4096x1024.Idx) (j : Fin 1024) (e : h.drop i = ValueIdx.ix1 j) : i 1 = j := by
  have hv : (h.drop i 0 : Nat) = i 1 := Shape.ReducesTo.drop_apply_val h i 0
  rw [e] at hv
  exact Fin.ext hv.symm

variable [Cert.Pre_finite_inputs.Facts]

/-- What the printed precondition says of its seven arguments at the extended reals. -/
theorem decode (a0 : FVec Ideal Cert.Pre_finite_inputs.S10000x256 .f32) (a1 : FVec Ideal Cert.Pre_finite_inputs.S1024x256 .f32)
    (a2 : FVec Ideal Cert.Pre_finite_inputs.S4096x1024 .f32) (a3 : FVec Ideal Cert.Pre_finite_inputs.S256x256 .f32)
    (a4 : FVec Ideal Cert.Pre_finite_inputs.S256 .f32) (a5 : FVec Ideal Cert.Pre_finite_inputs.S256x256 .f32)
    (a6 : FVec Ideal Cert.Pre_finite_inputs.S256 .f32)
    (h : Cert.Pre_finite_inputs.fn (F := Ideal) a0 a1 a2 a3 a4 a5 a6 = fun _ => 1#1) :
    Real2 (mat a0) ∧ Real2 (mat a1) ∧ ColsNonzero (mat a2) ∧ Real2 (mat a3) ∧ Real1 (vec a4) ∧ Real2 (mat a5) ∧ Real1 (vec a6) := by
  -- the scalar result at its one index, as the conjunction of the eight reductions
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨h0, h1⟩, h2⟩, h3⟩, h4⟩, h5⟩, h6⟩, h7⟩ := h0
  refine ⟨fun i j => real_of_elem _ a0 _ (Host.reduce_andi_all _ _ _ _ _ h0 (ValueIdx.ix2 i j)),
    fun i j => real_of_elem _ a1 _ (Host.reduce_andi_all _ _ _ _ _ h1 (ValueIdx.ix2 i j)), ?_,
    fun i j => real_of_elem _ a3 _ (Host.reduce_andi_all _ _ _ _ _ h3 (ValueIdx.ix2 i j)),
    fun i => real_of_elem _ a4 _ (Host.reduce_andi_all _ _ _ _ _ h4 (ValueIdx.ix1 i)),
    fun i j => real_of_elem _ a5 _ (Host.reduce_andi_all _ _ _ _ _ h5 (ValueIdx.ix2 i j)),
    fun i => real_of_elem _ a6 _ (Host.reduce_andi_all _ _ _ _ _ h6 (ValueIdx.ix1 i))⟩
  -- every column: the inner reduce by `or` is 1 there, so some row of the column holds a nonzero entry
  intro j
  have hj := Host.reduce_andi_all _ _ _ _ _ h7 (ValueIdx.ix1 j)
  obtain ⟨i, hi, hx⟩ := reduce_ori_eq_one _ _ _ _ rfl _ hj
  have hc : i 1 = j := col_of_drop _ i j hi
  refine ⟨i 0, ?_⟩
  have hij : mat a2 (i 0) j = a2 i := by
    subst hc
    exact congrArg a2 (ValueIdx.eq_ix2 i).symm
  rw [hij]
  exact ne_zero_of_elem _ a2 i hx

end Cert.PreDecode

end
-- ==== Proof.Algebra.lean ====
/-
  The law that joins the two arrangements of Proof/Spec.lean.
-/
import proofs.«130755_g52209622450808_cont_9to1_m_767_16_alg».proof.Proof.Spec
import Mathlib.Data.EReal.Operations
import Mathlib.Data.EReal.Inv
import Mathlib.Analysis.SpecialFunctions.Exp
import Mathlib.Analysis.SpecialFunctions.Sqrt
import Mathlib.Algebra.Order.BigOperators.Group.Finset
import Mathlib.Data.Finset.Lattice.Fold

noncomputable section

namespace Cert.Spec

open Idealize.ShloMosaic

/-! ## Squares, roots and sums of extended reals -/

/-- A square is nonnegative, at the infinities too. -/
private theorem mul_self_nonneg_ereal (x : EReal) : 0 ≤ x * x :=
  EReal.mul_nonneg_iff.mpr ((le_total 0 x).imp (fun h => ⟨h, h⟩) (fun h => ⟨h, h⟩))

/-- The square of a nonzero extended real is positive. -/
private theorem mul_self_pos_ereal {x : EReal} (h : x ≠ 0) : 0 < x * x :=
  EReal.mul_pos_iff.mpr ((lt_or_gt_of_ne h).symm.imp (fun h => ⟨h, h⟩) (fun h => ⟨h, h⟩))

/-- The root of a positive extended real is positive. -/
private theorem sqrt_pos_ereal {x : EReal} (h : 0 < x) : 0 < Ideal.sqrt x := by
  induction x using EReal.rec with
  | bot => exact absurd h (not_lt.mpr bot_le)
  | top => exact EReal.zero_lt_top
  | coe r =>
    have hr : 0 < r := EReal.coe_pos.mp h
    rw [Ideal.sqrt_coe, if_neg (not_lt.mpr hr.le)]
    exact EReal.coe_pos.mpr (Real.sqrt_pos.mpr hr)

/-- A root is the least extended real or nonnegative. -/
private theorem sqrt_bot_or_nonneg (x : EReal) : Ideal.sqrt x = ⊥ ∨ 0 ≤ Ideal.sqrt x := by
  induction x using EReal.rec with
  | bot => exact Or.inl rfl
  | top => exact Or.inr le_top
  | coe r =>
    rw [Ideal.sqrt_coe]
    by_cases hr : r < 0
    · exact Or.inl (if_pos hr)
    · rw [if_neg hr]; exact Or.inr (EReal.coe_nonneg.mpr (Real.sqrt_nonneg r))

/-- A finite sum whose terms are each the least extended real or nonnegative, one of them positive, is not zero:
    with a least term the sum is the least extended real, and without one it is at least the positive term. -/
private theorem sum_ne_zero_of_bot_or_nonneg {ι : Type} [DecidableEq ι] (s : Finset ι) (f : ι → EReal)
    (hf : ∀ i ∈ s, f i = ⊥ ∨ 0 ≤ f i) (i₀ : ι) (hi₀ : i₀ ∈ s) (hpos : 0 < f i₀) : ∑ i ∈ s, f i ≠ 0 := by
  by_cases hb : ∃ i ∈ s, f i = ⊥
  · obtain ⟨i, hi, hbot⟩ := hb
    rw [← Finset.add_sum_erase s f hi, hbot, EReal.bot_add]
    exact EReal.bot_ne_zero
  · have hnn : ∀ i ∈ s, 0 ≤ f i := fun i hi => (hf i hi).resolve_left fun e => hb ⟨i, hi, e⟩
    exact (lt_of_lt_of_le hpos (Finset.single_le_sum hnn hi₀)).ne'

/-- The diagonal Gram entry of a column with a nonzero entry is positive. -/
private theorem gram_diag_pos (fix : Mat 4096 1024) (h : ColsNonzero fix) (j : Fin 1024) : 0 < gram fix j j := by
  obtain ⟨r, hr⟩ := h j
  exact lt_of_lt_of_le (mul_self_pos_ereal hr)
    (Finset.single_le_sum (f := fun r => fix r j * fix r j) (fun i _ => mul_self_nonneg_ereal _) (Finset.mem_univ r))

/-- A column of `fix` with a nonzero entry has a nonzero root column sum: the diagonal Gram entry is a sum of
    squares one of which is positive, its root is positive, and every other root is nonnegative or the least
    extended real. -/
theorem colsum_ne_zero (fix : Mat 4096 1024) (h : ColsNonzero fix) (j : Fin 1024) : colsum fix j ≠ 0 := by
  exact sum_ne_zero_of_bot_or_nonneg Finset.univ (fun i => root fix i j) (fun i _ => sqrt_bot_or_nonneg _) j
    (Finset.mem_univ j) (sqrt_pos_ereal (gram_diag_pos fix h j))

/-- Off a zero column sum the two mixings agree term by term: (r · c⁻¹) · x = r · (x · c⁻¹). -/
theorem mixK_eq_mixR (fix : Mat 4096 1024) (other : Mat 1024 256) (h : ∀ j, colsum fix j ≠ 0) (i : Fin 1024) (d : Fin 256) :
    mixK fix other i d = mixR fix other i d := by
  unfold mixK mixR
  refine Finset.sum_congr rfl fun j _ => ?_
  rw [Ideal.div, Ideal.div, if_neg (h j), if_neg (h j), mul_assoc, mul_comm (other j d)]

/-! ## Real arrays -/

/-- The coercion of the reals commutes with finite sums. -/
private theorem coe_finset_sum {ι : Type} (s : Finset ι) (f : ι → ℝ) :
    ((∑ i ∈ s, f i : ℝ) : EReal) = ∑ i ∈ s, (f i : EReal) := by
  classical
  refine Finset.induction_on s (by simp) fun i s hi ih => ?_
  rw [Finset.sum_insert hi, Finset.sum_insert hi, EReal.coe_add, ih]

/-- A projection of real arrays is real. -/
private theorem proj_real {n : Nat} {x : Mat n 256} {W : Mat 256 256} {b : Fin 256 → EReal}
    (hx : Real2 x) (hW : Real2 W) (hb : Real1 b) : Real2 (proj x W b) := by
  have hx' : ∀ i j, ∃ r : ℝ, x i j = (r : EReal) := hx
  have hW' : ∀ i j, ∃ r : ℝ, W i j = (r : EReal) := hW
  have hb' : ∀ i, ∃ r : ℝ, b i = (r : EReal) := hb
  choose xr hxr using hx'
  choose Wr hWr using hW'
  choose br hbr using hb'
  intro r d
  refine ⟨(∑ e, xr r e * Wr d e) + br d, ?_⟩
  unfold proj
  rw [EReal.coe_add, coe_finset_sum, hbr]
  congr 1
  exact Finset.sum_congr rfl fun e _ => by rw [hxr, hWr, EReal.coe_mul]

/-- The two logits of real queries and keys are one real number. -/
private theorem logits_real {q : Mat 10000 256} {k : Mat 1024 256} (hq : Real2 q) (hk : Real2 k) (n : Fin 10000) :
    ∃ a : Fin 1024 → ℝ, (∀ j, logitK q k n j = (a j : EReal)) ∧ (∀ j, logitR q k n j = (a j : EReal)) := by
  have hq' : ∀ i j, ∃ r : ℝ, q i j = (r : EReal) := hq
  have hk' : ∀ i j, ∃ r : ℝ, k i j = (r : EReal) := hk
  choose qr hqr using hq'
  choose kr hkr using hk'
  refine ⟨fun j => (∑ d, qr n d * kr j d) * (1 / 16), fun j => ?_, fun j => ?_⟩
  · show logitK q k n j = (((∑ d, qr n d * kr j d) * (1 / 16) : ℝ) : EReal)
    unfold logitK
    rw [Finset.sum_mul, coe_finset_sum]
    exact Finset.sum_congr rfl fun d _ => by rw [hqr, hkr, mul_assoc, EReal.coe_mul, EReal.coe_mul]
  · show logitR q k n j = (((∑ d, qr n d * kr j d) * (1 / 16) : ℝ) : EReal)
    unfold logitR
    rw [Ideal.div_coe (by norm_num : (16 : ℝ) ≠ 0), EReal.coe_mul, coe_finset_sum]
    congr 1
    exact Finset.sum_congr rfl fun d _ => by rw [hqr, hkr, EReal.coe_mul]

/-! ## The softmax of a real row -/

/-- The softmax weights of a real row: the row's maximum is one of its entries, hence real, and the shift by it
    cancels between the exponential and the sum of the exponentials. -/
private theorem softmax_real (a : Fin 1024 → ℝ) (j : Fin 1024) :
    softmax (fun j => (a j : EReal)) j = ((Real.exp (a j) / ∑ j', Real.exp (a j') : ℝ) : EReal) := by
  obtain ⟨m, -, hm⟩ := Finset.exists_mem_eq_sup Finset.univ Finset.univ_nonempty (fun j => (a j : EReal))
  have hsh : ∀ j', shifted (fun j => (a j : EReal)) j' = ((Real.exp (a j' - a m) : ℝ) : EReal) := fun j' => by
    unfold shifted rowmax
    rw [hm, ← EReal.coe_sub, Ideal.exp_coe]
  have hpos : 0 < ∑ j', Real.exp (a j' - a m) := Finset.sum_pos (fun _ _ => Real.exp_pos _) Finset.univ_nonempty
  unfold softmax
  simp only [hsh]
  rw [← coe_finset_sum, Ideal.div, if_neg (EReal.coe_ne_zero.mpr hpos.ne'), ← EReal.coe_inv, ← EReal.coe_mul]
  congr 1
  have hsub : ∀ j', Real.exp (a j' - a m) = Real.exp (a j') / Real.exp (a m) := fun j' => Real.exp_sub _ _
  simp only [hsub]
  rw [← Finset.sum_div]
  have hm0 : Real.exp (a m) ≠ 0 := (Real.exp_pos _).ne'
  have hs0 : ∑ j', Real.exp (a j') ≠ 0 := (Finset.sum_pos (fun _ _ => Real.exp_pos _) Finset.univ_nonempty).ne'
  field_simp

/-! ## A nonnegative real factor and a finite sum -/

/-- A nonnegative real factor moves inside a finite sum of extended reals, whatever the terms. -/
private theorem sum_mul_coe_of_nonneg {ι : Type} (s : Finset ι) (y : ι → EReal) {c : ℝ} (hc : 0 ≤ c) :
    (∑ i ∈ s, y i) * (c : EReal) = ∑ i ∈ s, y i * (c : EReal) := by
  classical
  refine Finset.induction_on s (by simp) fun i s hi ih => ?_
  rw [Finset.sum_insert hi, Finset.sum_insert hi,
    EReal.right_distrib_of_nonneg_of_ne_top (EReal.coe_nonneg.mpr hc) (EReal.coe_ne_top c), ih]

/-- The two results agree when the six arrays the logits are made of are real and every column of `fix` has a
    nonzero entry. -/
theorem outK_eq_outR (main : Mat 10000 256) (other : Mat 1024 256) (fix : Mat 4096 1024) (Wq : Mat 256 256)
    (bq : Fin 256 → EReal) (Wk : Mat 256 256) (bk : Fin 256 → EReal)
    (hmain : Real2 main) (hother : Real2 other) (hWq : Real2 Wq) (hbq : Real1 bq) (hWk : Real2 Wk) (hbk : Real1 bk)
    (hfix : ColsNonzero fix) (n : Fin 10000) (d : Fin 256) :
    outK main other fix Wq bq Wk bk n d = outR main other fix Wq bq Wk bk n d := by
  obtain ⟨a, haK, haR⟩ := logits_real (proj_real hmain hWq hbq) (proj_real hother hWk hbk) n
  have hR : logitR (proj main Wq bq) (proj other Wk bk) n = fun j => (a j : EReal) := funext haR
  have hD : 0 < ∑ j, Real.exp (a j) := Finset.sum_pos (fun _ _ => Real.exp_pos _) Finset.univ_nonempty
  unfold outK outR
  rw [hR]
  simp only [haK, Ideal.exp_coe, softmax_real, mixK_eq_mixR fix other (colsum_ne_zero fix hfix)]
  rw [← coe_finset_sum, Ideal.div_coe hD.ne', one_mul, sum_mul_coe_of_nonneg _ _ (one_div_nonneg.mpr hD.le)]
  refine Finset.sum_congr rfl fun j _ => ?_
  rw [mul_right_comm, ← EReal.coe_mul, mul_one_div]

end Cert.Spec

end
-- ==== Proof.lean ====
/-
  The certificate's five claims for a fused attention kernel against its jnp reference.

  Both programs compute O = softmax(Q Kᵀ / 16) · M for Q = main · Wqᵀ + bq, K = other · Wkᵀ + bk and
  M = (R / colsum R) · other, R the entrywise square root of the Gram matrix of fix_feat's columns. The kernel
  accumulates the Gram matrix over four grid points, builds M (scaling the rows of other by 1 / colsum R instead of
  the columns of R) and K / 16 at the fourth, and at five more points computes blocks of exp(Q (K/16)ᵀ) · M
  divided by the row sums of the exponentials. Over the extended reals the two agree when the six arrays the
  logits are made of hold real numbers and every column of fix_feat has a nonzero entry: then no column sum of R
  is zero, (r · c⁻¹) · x = r · (x · c⁻¹) term by term, and the softmax's shift by the row maximum cancels between
  numerator and denominator (Proof/Algebra.lean). Where a column of fix_feat is entirely zero the reference's
  quotient is 0 / 0, which the precondition excludes.

  The kernel's frame is proved from its body's run at each of the four kinds of grid point (Proof/IdealFrame, and
  the same text at the word level in Proof/BitsFrame); its value is read off that run (Proof/IdealFrame/KValue.lean,
  Final.lean); the reference's value off its run (Proof/RefValue.lean); the precondition is read back in
  Proof/PreDecode.lean.
-/
import proofs.«130755_g52209622450808_cont_9to1_m_767_16_alg».proof.Defs
import proofs.«130755_g52209622450808_cont_9to1_m_767_16_alg».proof.Proof.Gen.Kernel
import proofs.«130755_g52209622450808_cont_9to1_m_767_16_alg».proof.Proof.Gen.KernelIdeal
import proofs.«130755_g52209622450808_cont_9to1_m_767_16_alg».proof.Proof.Gen.ReferenceIdeal
import proofs.«130755_g52209622450808_cont_9to1_m_767_16_alg».proof.Proof.Gen.Pre_finite_inputs
import proofs.«130755_g52209622450808_cont_9to1_m_767_16_alg».proof.Proof.BitsFrame.Run
import proofs.«130755_g52209622450808_cont_9to1_m_767_16_alg».proof.Proof.IdealFrame.Run
import proofs.«130755_g52209622450808_cont_9to1_m_767_16_alg».proof.Proof.IdealFrame.Final
import proofs.«130755_g52209622450808_cont_9to1_m_767_16_alg».proof.Proof.Gen.ReferenceIdeal.Run
import proofs.«130755_g52209622450808_cont_9to1_m_767_16_alg».proof.Proof.RefValue
import proofs.«130755_g52209622450808_cont_9to1_m_767_16_alg».proof.Proof.PreDecode
import proofs.«130755_g52209622450808_cont_9to1_m_767_16_alg».proof.Proof.Algebra
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result: the kernel's array is
    the specification's kernel-side function of the arguments, the reference's is its reference-side function, and
    under the precondition the two functions agree at every index. -/
theorem algebraic : Cert.algebraic_KernelIdeal_ReferenceIdeal := by
  intro m ρ m' ρ' hpre hagree
  refine ⟨fun c => Cert.KernelIdeal.Final.result m c, Cert.KernelIdeal.Final.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  obtain ⟨p0, p1, p2, p3, p4, p5, p6⟩ := Cert.PreDecode.decode _ _ _ _ _ _ _ (hpre c)
  funext i
  obtain ⟨n, d, rfl⟩ : ∃ (n : Fin 10000) (d : Fin 256), i = ValueIdx.ix2 n d := ⟨i 0, i 1, ValueIdx.eq_ix2 i⟩
  rw [Cert.RefValue.ref_value m' c n d, h0, h1, h2, h3, h4, h5, h6]
  exact (Cert.Spec.outK_eq_outR _ _ _ _ _ _ _ p0 p1 p3 p4 p5 p6 p2 n d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
